-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x2048x60 : Shape := ⟨3, ![64, 2048, 60]⟩
abbrev S64x16x30x30 : Shape := ⟨4, ![64, 16, 30, 30]⟩
abbrev S64x16x2 : Shape := ⟨3, ![64, 16, 2]⟩
abbrev S_ : Shape := ⟨0, ![]⟩

class Facts : Prop where
  bcast_S_S64x2048x60 : S_.BroadcastsInDim S64x2048x60 (![] : Fin 0 → Fin S64x2048x60.rank)
  reducesTo_S64x2048x60_S_d0_1_2 : S64x2048x60.ReducesTo [0, 1, 2] S_
  h_S_ : 0 < S_.numel
  bcast_S_S64x16x30x30 : S_.BroadcastsInDim S64x16x30x30 (![] : Fin 0 → Fin S64x16x30x30.rank)
  reducesTo_S64x16x30x30_S_d0_1_2_3 : S64x16x30x30.ReducesTo [0, 1, 2, 3] S_
  bcast_S_S64x16x2 : S_.BroadcastsInDim S64x16x2 (![] : Fin 0 → Fin S64x16x2.rank)
  reducesTo_S64x16x2_S_d0_1_2 : S64x16x2.ReducesTo [0, 1, 2] S_

variable [Facts]

def fn_part1 {F : FTy → Type} [FloatOps F] (main_arg3 : IVec S64x16x2 32) (main_v13 : IVec S_ 1) (main_v15 : IVec S64x16x2 1) (main_c_5 : IVec S_ 32) : IVec S_ 1 :=
  let main_v16 : IVec S64x16x2 32 := broadcastInDim S64x16x2 ![] bcast_S_S64x16x2 main_c_5
  let main_v17 : IVec S64x16x2 1 := cmpi .sle main_arg3 main_v16
  let main_v18 : IVec S64x16x2 1 := andi main_v15 main_v17
  let main_c_6 : IVec S_ 1 := constantI S_ 1 1#1
  let main_v19 : IVec S_ 1 := (fun x v => Host.reduce IntOp.andi x v reducesTo_S64x16x2_S_d0_1_2 h_S_) main_v18 main_c_6
  let main_v20 : IVec S_ 1 := andi main_v13 main_v19
  main_v20

def fn {F : FTy → Type} [FloatOps F] (main_arg0 : FVec F S64x2048x60 .f32) (main_arg1 : FVec F S64x2048x60 .f32) (main_arg2 : FVec F S64x16x30x30 .f32) (main_arg3 : IVec S64x16x2 32) : IVec S_ 1 :=
  let main_v0 : FVec F S64x2048x60 .f32 := Host.absf main_arg0
  let main_cst : FVec F S_ .f32 := constant S_ .f32 0x7F800000#32
  let main_v1 : FVec F S64x2048x60 .f32 := broadcastInDim S64x2048x60 ![] bcast_S_S64x2048x60 main_cst
  let main_v2 : IVec S64x2048x60 1 := cmpf .olt main_v0 main_v1
  let main_c : IVec S_ 1 := constantI S_ 1 1#1
  let main_v3 : IVec S_ 1 := (fun x v => Host.reduce IntOp.andi x v reducesTo_S64x2048x60_S_d0_1_2 h_S_) main_v2 main_c
  let main_v4 : FVec F S64x2048x60 .f32 := Host.absf main_arg1
  let main_cst_0 : FVec F S_ .f32 := constant S_ .f32 0x7F800000#32
  let main_v5 : FVec F S64x2048x60 .f32 := broadcastInDim S64x2048x60 ![] bcast_S_S64x2048x60 main_cst_0
  let main_v6 : IVec S64x2048x60 1 := cmpf .olt main_v4 main_v5
  let main_c_1 : IVec S_ 1 := constantI S_ 1 1#1
  let main_v7 : IVec S_ 1 := (fun x v => Host.reduce IntOp.andi x v reducesTo_S64x2048x60_S_d0_1_2 h_S_) main_v6 main_c_1
  let main_v8 : IVec S_ 1 := andi main_v3 main_v7
  let main_v9 : FVec F S64x16x30x30 .f32 := Host.absf main_arg2
  let main_cst_2 : FVec F S_ .f32 := constant S_ .f32 0x7F800000#32
  let main_v10 : FVec F S64x16x30x30 .f32 := broadcastInDim S64x16x30x30 ![] bcast_S_S64x16x30x30 main_cst_2
  let main_v11 : IVec S64x16x30x30 1 := cmpf .olt main_v9 main_v10
  let main_c_3 : IVec S_ 1 := constantI S_ 1 1#1
  let main_v12 : IVec S_ 1 := (fun x v => Host.reduce IntOp.andi x v reducesTo_S64x16x30x30_S_d0_1_2_3 h_S_) main_v11 main_c_3
  let main_v13 : IVec S_ 1 := andi main_v8 main_v12
  let main_c_4 : IVec S_ 32 := constantI S_ 32 0#32
  let main_v14 : IVec S64x16x2 32 := broadcastInDim S64x16x2 ![] bcast_S_S64x16x2 main_c_4
  let main_v15 : IVec S64x16x2 1 := cmpi .sge main_arg3 main_v14
  let main_c_5 : IVec S_ 32 := constantI S_ 32 2018#32
  fn_part1 (F := F) main_arg3 main_v13 main_v15 main_c_5
-- ==== Kernel.lean ====
abbrev S64x2048x60 : Shape := ⟨3, ![64, 2048, 60]⟩
abbrev S64x16x30x30 : Shape := ⟨4, ![64, 16, 30, 30]⟩
abbrev S64x16x2 : Shape := ⟨3, ![64, 16, 2]⟩
abbrev S64x16x30x30x121 : Shape := ⟨5, ![64, 16, 30, 30, 121]⟩
abbrev S1x2048x60 : Shape := ⟨3, ![1, 2048, 60]⟩
abbrev S1x16x30x30 : Shape := ⟨4, ![1, 16, 30, 30]⟩
abbrev S1x16x30x30x121 : Shape := ⟨5, ![1, 16, 30, 30, 121]⟩
abbrev S1x1x1 : Shape := ⟨3, ![1, 1, 1]⟩
abbrev S1x30x60 : Shape := ⟨3, ![1, 30, 60]⟩
abbrev S30x60 : Shape := ⟨2, ![30, 60]⟩
abbrev S1x1x30x30 : Shape := ⟨4, ![1, 1, 30, 30]⟩
abbrev S30x30 : Shape := ⟨2, ![30, 30]⟩
abbrev S30x30x60 : Shape := ⟨3, ![30, 30, 60]⟩
abbrev S30x1x60 : Shape := ⟨3, ![30, 1, 60]⟩
abbrev S1x1x30x30x60 : Shape := ⟨5, ![1, 1, 30, 30, 60]⟩
abbrev S30x30x1 : Shape := ⟨3, ![30, 30, 1]⟩
abbrev S1x1x30x30x1 : Shape := ⟨5, ![1, 1, 30, 30, 1]⟩

abbrev nBuf : Space → Nat
  | .hbm => 4
  | .vmem => 8
  | .smem => 1
  | _ => 0

abbrev bufTy : (tb : Table) → Fin (tcTables nBuf tb) → BufTy
  | .hbm, ⟨0, _⟩ => ⟨S64x2048x60, .f32⟩
  | .hbm, ⟨1, _⟩ => ⟨S64x2048x60, .f32⟩
  | .hbm, ⟨2, _⟩ => ⟨S64x16x30x30, .f32⟩
  | .hbm, ⟨3, _⟩ => ⟨S64x16x30x30x121, .f32⟩
  | .local _ .vmem, ⟨0, _⟩ => ⟨S1x2048x60, .f32⟩
  | .local _ .vmem, ⟨1, _⟩ => ⟨S1x2048x60, .f32⟩
  | .local _ .vmem, ⟨2, _⟩ => ⟨S1x2048x60, .f32⟩
  | .local _ .vmem, ⟨3, _⟩ => ⟨S1x2048x60, .f32⟩
  | .local _ .vmem, ⟨4, _⟩ => ⟨S1x16x30x30, .f32⟩
  | .local _ .vmem, ⟨5, _⟩ => ⟨S1x16x30x30, .f32⟩
  | .local _ .vmem, ⟨6, _⟩ => ⟨S1x16x30x30x121, .f32⟩
  | .local _ .vmem, ⟨7, _⟩ => ⟨S1x16x30x30x121, .f32⟩
  | .local _ .smem, ⟨0, _⟩ => ⟨S64x16x2, .i32⟩
  | _, _ => ⟨S64x2048x60, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 3 → Nat :=
  let arg0 : BitVec 32 := BitVec.ofNat 32 (i 0).val
  let v0 : Index := Scalar.indexCast arg0
  let c0 : Index := 0#32
  let c0_0 : Index := 0#32
  ![v0.toNat, 0, 0]
def k0_off2 (i : grid0.Coords) : Fin 3 → Nat :=
  let arg0 : BitVec 32 := BitVec.ofNat 32 (i 0).val
  let v2 : Index := Scalar.indexCast arg0
  let c0_1 : Index := 0#32
  let c1 : Index := 1#32
  ![v2.toNat, 0, 1]
def k0_off3 (v1 : BitVec 32) : Fin 3 → Nat :=
  let c0_2 : Index := 0#32
  let v4 : Index := Scalar.indexCast v1
  let c0_3 : Index := 0#32
  ![0, v4.toNat, 0]

def k0_chk1 (v1 : BitVec 32) : Prop :=
  (∀ a, (k0_off3 v1) a + S1x30x60.size a ≤ S1x2048x60.size a)
instance k0_chk1.dec : ∀ (v1 : BitVec 32), Decidable (k0_chk1 v1) := fun v1 => decidable_of_iff' _ (Iff.of_eq (k0_chk1.eq_1 v1))
theorem k0_off3_inb : ∀ (v1 : BitVec 32) (k0_hw1 : k0_chk1 v1), ∀ a, (k0_off3 v1) a + S1x30x60.size a ≤ S1x2048x60.size a := fun v1 k0_hw1 => k0_hw1

def k0_off4 (v3 : BitVec 32) : Fin 3 → Nat :=
  let c0_4 : Index := 0#32
  let v7 : Index := Scalar.indexCast v3
  let c0_5 : Index := 0#32
  ![0, v7.toNat, 0]

def k0_chk2 (v3 : BitVec 32) : Prop :=
  (∀ a, (k0_off4 v3) a + S1x30x60.size a ≤ S1x2048x60.size a)
instance k0_chk2.dec : ∀ (v3 : BitVec 32), Decidable (k0_chk2 v3) := fun v3 => decidable_of_iff' _ (Iff.of_eq (k0_chk2.eq_1 v3))
theorem k0_off4_inb : ∀ (v3 : BitVec 32) (k0_hw2 : k0_chk2 v3), ∀ a, (k0_off4 v3) a + S1x30x60.size a ≤ S1x2048x60.size a := fun v3 k0_hw2 => k0_hw2

def k0_off5 (i : grid0.Coords) : Fin 3 → Nat :=
  let arg0 : BitVec 32 := BitVec.ofNat 32 (i 0).val
  let v28 : Index := Scalar.indexCast arg0
  let c1_23 : Index := 1#32
  let c0_24 : Index := 0#32
  ![v28.toNat, 1, 0]
def k0_off6 (i : grid0.Coords) : Fin 3 → Nat :=
  let arg0 : BitVec 32 := BitVec.ofNat 32 (i 0).val
  let v30 : Index := Scalar.indexCast arg0
  let c1_25 : Index := 1#32
  let c1_26 : Index := 1#32
  ![v30.toNat, 1, 1]
def k0_off7 (v29 : BitVec 32) : Fin 3 → Nat :=
  let c0_27 : Index := 0#32
  let v32 : Index := Scalar.indexCast v29
  let c0_28 : Index := 0#32
  ![0, v32.toNat, 0]

def k0_chk3 (v29 : BitVec 32) : Prop :=
  (∀ a, (k0_off7 v29) a + S1x30x60.size a ≤ S1x2048x60.size a)
instance k0_chk3.dec : ∀ (v29 : BitVec 32), Decidable (k0_chk3 v29) := fun v29 => decidable_of_iff' _ (Iff.of_eq (k0_chk3.eq_1 v29))
theorem k0_off7_inb : ∀ (v29 : BitVec 32) (k0_hw3 : k0_chk3 v29), ∀ a, (k0_off7 v29) a + S1x30x60.size a ≤ S1x2048x60.size a := fun v29 k0_hw3 => k0_hw3

def k0_off8 (v31 : BitVec 32) : Fin 3 → Nat :=
  let c0_29 : Index := 0#32
  let v35 : Index := Scalar.indexCast v31
  let c0_30 : Index := 0#32
  ![0, v35.toNat, 0]

def k0_chk4 (v31 : BitVec 32) : Prop :=
  (∀ a, (k0_off8 v31) a + S1x30x60.size a ≤ S1x2048x60.size a)
instance k0_chk4.dec : ∀ (v31 : BitVec 32), Decidable (k0_chk4 v31) := fun v31 => decidable_of_iff' _ (Iff.of_eq (k0_chk4.eq_1 v31))
theorem k0_off8_inb : ∀ (v31 : BitVec 32) (k0_hw4 : k0_chk4 v31), ∀ a, (k0_off8 v31) a + S1x30x60.size a ≤ S1x2048x60.size a := fun v31 k0_hw4 => k0_hw4

def k0_off9 (i : grid0.Coords) : Fin 3 → Nat :=
  let arg0 : BitVec 32 := BitVec.ofNat 32 (i 0).val
  let v56 : Index := Scalar.indexCast arg0
  let c2 : Index := 2#32
  let c0_50 : Index := 0#32
  ![v56.toNat, 2, 0]
def k0_off10 (i : grid0.Coords) : Fin 3 → Nat :=
  let arg0 : BitVec 32 := BitVec.ofNat 32 (i 0).val
  let v58 : Index := Scalar.indexCast arg0
  let c2_51 : Index := 2#32
  let c1_52 : Index := 1#32
  ![v58.toNat, 2, 1]
def k0_off11 (v57 : BitVec 32) : Fin 3 → Nat :=
  let c0_53 : Index := 0#32
  let v60 : Index := Scalar.indexCast v57
  let c0_54 : Index := 0#32
  ![0, v60.toNat, 0]

def k0_chk5 (v57 : BitVec 32) : Prop :=
  (∀ a, (k0_off11 v57) a + S1x30x60.size a ≤ S1x2048x60.size a)
instance k0_chk5.dec : ∀ (v57 : BitVec 32), Decidable (k0_chk5 v57) := fun v57 => decidable_of_iff' _ (Iff.of_eq (k0_chk5.eq_1 v57))
theorem k0_off11_inb : ∀ (v57 : BitVec 32) (k0_hw5 : k0_chk5 v57), ∀ a, (k0_off11 v57) a + S1x30x60.size a ≤ S1x2048x60.size a := fun v57 k0_hw5 => k0_hw5

def k0_off12 (v59 : BitVec 32) : Fin 3 → Nat :=
  let c0_55 : Index := 0#32
  let v63 : Index := Scalar.indexCast v59
  let c0_56 : Index := 0#32
  ![0, v63.toNat, 0]

def k0_chk6 (v59 : BitVec 32) : Prop :=
  (∀ a, (k0_off12 v59) a + S1x30x60.size a ≤ S1x2048x60.size a)
instance k0_chk6.dec : ∀ (v59 : BitVec 32), Decidable (k0_chk6 v59) := fun v59 => decidable_of_iff' _ (Iff.of_eq (k0_chk6.eq_1 v59))
theorem k0_off12_inb : ∀ (v59 : BitVec 32) (k0_hw6 : k0_chk6 v59), ∀ a, (k0_off12 v59) a + S1x30x60.size a ≤ S1x2048x60.size a := fun v59 k0_hw6 => k0_hw6

def k0_off13 (i : grid0.Coords) : Fin 3 → Nat :=
  let arg0 : BitVec 32 := BitVec.ofNat 32 (i 0).val
  let v84 : Index := Scalar.indexCast arg0
  let c3 : Index := 3#32
  let c0_76 : Index := 0#32
  ![v84.toNat, 3, 0]
def k0_off14 (i : grid0.Coords) : Fin 3 → Nat :=
  let arg0 : BitVec 32 := BitVec.ofNat 32 (i 0).val
  let v86 : Index := Scalar.indexCast arg0
  let c3_77 : Index := 3#32
  let c1_78 : Index := 1#32
  ![v86.toNat, 3, 1]
def k0_off15 (v85 : BitVec 32) : Fin 3 → Nat :=
  let c0_79 : Index := 0#32
  let v88 : Index := Scalar.indexCast v85
  let c0_80 : Index := 0#32
  ![0, v88.toNat, 0]

def k0_chk7 (v85 : BitVec 32) : Prop :=
  (∀ a, (k0_off15 v85) a + S1x30x60.size a ≤ S1x2048x60.size a)
instance k0_chk7.dec : ∀ (v85 : BitVec 32), Decidable (k0_chk7 v85) := fun v85 => decidable_of_iff' _ (Iff.of_eq (k0_chk7.eq_1 v85))
theorem k0_off15_inb : ∀ (v85 : BitVec 32) (k0_hw7 : k0_chk7 v85), ∀ a, (k0_off15 v85) a + S1x30x60.size a ≤ S1x2048x60.size a := fun v85 k0_hw7 => k0_hw7

def k0_off16 (v87 : BitVec 32) : Fin 3 → Nat :=
  let c0_81 : Index := 0#32
  let v91 : Index := Scalar.indexCast v87
  let c0_82 : Index := 0#32
  ![0, v91.toNat, 0]

def k0_chk8 (v87 : BitVec 32) : Prop :=
  (∀ a, (k0_off16 v87) a + S1x30x60.size a ≤ S1x2048x60.size a)
instance k0_chk8.dec : ∀ (v87 : BitVec 32), Decidable (k0_chk8 v87) := fun v87 => decidable_of_iff' _ (Iff.of_eq (k0_chk8.eq_1 v87))
theorem k0_off16_inb : ∀ (v87 : BitVec 32) (k0_hw8 : k0_chk8 v87), ∀ a, (k0_off16 v87) a + S1x30x60.size a ≤ S1x2048x60.size a := fun v87 k0_hw8 => k0_hw8

def k0_off17 (i : grid0.Coords) : Fin 3 → Nat :=
  let arg0 : BitVec 32 := BitVec.ofNat 32 (i 0).val
  let v112 : Index := Scalar.indexCast arg0
  let c4 : Index := 4#32
  let c0_102 : Index := 0#32
  ![v112.toNat, 4, 0]
def k0_off18 (i : grid0.Coords) : Fin 3 → Nat :=
  let arg0 : BitVec 32 := BitVec.ofNat 32 (i 0).val
  let v114 : Index := Scalar.indexCast arg0
  let c4_103 : Index := 4#32
  let c1_104 : Index := 1#32
  ![v114.toNat, 4, 1]
def k0_off19 (v113 : BitVec 32) : Fin 3 → Nat :=
  let c0_105 : Index := 0#32
  let v116 : Index := Scalar.indexCast v113
  let c0_106 : Index := 0#32
  ![0, v116.toNat, 0]

def k0_chk9 (v113 : BitVec 32) : Prop :=
  (∀ a, (k0_off19 v113) a + S1x30x60.size a ≤ S1x2048x60.size a)
instance k0_chk9.dec : ∀ (v113 : BitVec 32), Decidable (k0_chk9 v113) := fun v113 => decidable_of_iff' _ (Iff.of_eq (k0_chk9.eq_1 v113))
theorem k0_off19_inb : ∀ (v113 : BitVec 32) (k0_hw9 : k0_chk9 v113), ∀ a, (k0_off19 v113) a + S1x30x60.size a ≤ S1x2048x60.size a := fun v113 k0_hw9 => k0_hw9

def k0_off20 (v115 : BitVec 32) : Fin 3 → Nat :=
  let c0_107 : Index := 0#32
  let v119 : Index := Scalar.indexCast v115
  let c0_108 : Index := 0#32
  ![0, v119.toNat, 0]

def k0_chk10 (v115 : BitVec 32) : Prop :=
  (∀ a, (k0_off20 v115) a + S1x30x60.size a ≤ S1x2048x60.size a)
instance k0_chk10.dec : ∀ (v115 : BitVec 32), Decidable (k0_chk10 v115) := fun v115 => decidable_of_iff' _ (Iff.of_eq (k0_chk10.eq_1 v115))
theorem k0_off20_inb : ∀ (v115 : BitVec 32) (k0_hw10 : k0_chk10 v115), ∀ a, (k0_off20 v115) a + S1x30x60.size a ≤ S1x2048x60.size a := fun v115 k0_hw10 => k0_hw10

def k0_off21 (i : grid0.Coords) : Fin 3 → Nat :=
  let arg0 : BitVec 32 := BitVec.ofNat 32 (i 0).val
  let v140 : Index := Scalar.indexCast arg0
  let c5 : Index := 5#32
  let c0_128 : Index := 0#32
  ![v140.toNat, 5, 0]
def k0_off22 (i : grid0.Coords) : Fin 3 → Nat :=
  let arg0 : BitVec 32 := BitVec.ofNat 32 (i 0).val
  let v142 : Index := Scalar.indexCast arg0
  let c5_129 : Index := 5#32
  let c1_130 : Index := 1#32
  ![v142.toNat, 5, 1]
def k0_off23 (v141 : BitVec 32) : Fin 3 → Nat :=
  let c0_131 : Index := 0#32
  let v144 : Index := Scalar.indexCast v141
  let c0_132 : Index := 0#32
  ![0, v144.toNat, 0]

def k0_chk11 (v141 : BitVec 32) : Prop :=
  (∀ a, (k0_off23 v141) a + S1x30x60.size a ≤ S1x2048x60.size a)
instance k0_chk11.dec : ∀ (v141 : BitVec 32), Decidable (k0_chk11 v141) := fun v141 => decidable_of_iff' _ (Iff.of_eq (k0_chk11.eq_1 v141))
theorem k0_off23_inb : ∀ (v141 : BitVec 32) (k0_hw11 : k0_chk11 v141), ∀ a, (k0_off23 v141) a + S1x30x60.size a ≤ S1x2048x60.size a := fun v141 k0_hw11 => k0_hw11

def k0_off24 (v143 : BitVec 32) : Fin 3 → Nat :=
  let c0_133 : Index := 0#32
  let v147 : Index := Scalar.indexCast v143
  let c0_134 : Index := 0#32
  ![0, v147.toNat, 0]

def k0_chk12 (v143 : BitVec 32) : Prop :=
  (∀ a, (k0_off24 v143) a + S1x30x60.size a ≤ S1x2048x60.size a)
instance k0_chk12.dec : ∀ (v143 : BitVec 32), Decidable (k0_chk12 v143) := fun v143 => decidable_of_iff' _ (Iff.of_eq (k0_chk12.eq_1 v143))
theorem k0_off24_inb : ∀ (v143 : BitVec 32) (k0_hw12 : k0_chk12 v143), ∀ a, (k0_off24 v143) a + S1x30x60.size a ≤ S1x2048x60.size a := fun v143 k0_hw12 => k0_hw12

def k0_off25 (i : grid0.Coords) : Fin 3 → Nat :=
  let arg0 : BitVec 32 := BitVec.ofNat 32 (i 0).val
  let v168 : Index := Scalar.indexCast arg0
  let c6 : Index := 6#32
  let c0_154 : Index := 0#32
  ![v168.toNat, 6, 0]
def k0_off26 (i : grid0.Coords) : Fin 3 → Nat :=
  let arg0 : BitVec 32 := BitVec.ofNat 32 (i 0).val
  let v170 : Index := Scalar.indexCast arg0
  let c6_155 : Index := 6#32
  let c1_156 : Index := 1#32
  ![v170.toNat, 6, 1]
def k0_off27 (v169 : BitVec 32) : Fin 3 → Nat :=
  let c0_157 : Index := 0#32
  let v172 : Index := Scalar.indexCast v169
  let c0_158 : Index := 0#32
  ![0, v172.toNat, 0]

def k0_chk13 (v169 : BitVec 32) : Prop :=
  (∀ a, (k0_off27 v169) a + S1x30x60.size a ≤ S1x2048x60.size a)
instance k0_chk13.dec : ∀ (v169 : BitVec 32), Decidable (k0_chk13 v169) := fun v169 => decidable_of_iff' _ (Iff.of_eq (k0_chk13.eq_1 v169))
theorem k0_off27_inb : ∀ (v169 : BitVec 32) (k0_hw13 : k0_chk13 v169), ∀ a, (k0_off27 v169) a + S1x30x60.size a ≤ S1x2048x60.size a := fun v169 k0_hw13 => k0_hw13

def k0_off28 (v171 : BitVec 32) : Fin 3 → Nat :=
  let c0_159 : Index := 0#32
  let v175 : Index := Scalar.indexCast v171
  let c0_160 : Index := 0#32
  ![0, v175.toNat, 0]

def k0_chk14 (v171 : BitVec 32) : Prop :=
  (∀ a, (k0_off28 v171) a + S1x30x60.size a ≤ S1x2048x60.size a)
instance k0_chk14.dec : ∀ (v171 : BitVec 32), Decidable (k0_chk14 v171) := fun v171 => decidable_of_iff' _ (Iff.of_eq (k0_chk14.eq_1 v171))
theorem k0_off28_inb : ∀ (v171 : BitVec 32) (k0_hw14 : k0_chk14 v171), ∀ a, (k0_off28 v171) a + S1x30x60.size a ≤ S1x2048x60.size a := fun v171 k0_hw14 => k0_hw14

def k0_off29 (i : grid0.Coords) : Fin 3 → Nat :=
  let arg0 : BitVec 32 := BitVec.ofNat 32 (i 0).val
  let v196 : Index := Scalar.indexCast arg0
  let c7 : Index := 7#32
  let c0_180 : Index := 0#32
  ![v196.toNat, 7, 0]
def k0_off30 (i : grid0.Coords) : Fin 3 → Nat :=
  let arg0 : BitVec 32 := BitVec.ofNat 32 (i 0).val
  let v198 : Index := Scalar.indexCast arg0
  let c7_181 : Index := 7#32
  let c1_182 : Index := 1#32
  ![v198.toNat, 7, 1]
def k0_off31 (v197 : BitVec 32) : Fin 3 → Nat :=
  let c0_183 : Index := 0#32
  let v200 : Index := Scalar.indexCast v197
  let c0_184 : Index := 0#32
  ![0, v200.toNat, 0]

def k0_chk15 (v197 : BitVec 32) : Prop :=
  (∀ a, (k0_off31 v197) a + S1x30x60.size a ≤ S1x2048x60.size a)
instance k0_chk15.dec : ∀ (v197 : BitVec 32), Decidable (k0_chk15 v197) := fun v197 => decidable_of_iff' _ (Iff.of_eq (k0_chk15.eq_1 v197))
theorem k0_off31_inb : ∀ (v197 : BitVec 32) (k0_hw15 : k0_chk15 v197), ∀ a, (k0_off31 v197) a + S1x30x60.size a ≤ S1x2048x60.size a := fun v197 k0_hw15 => k0_hw15

def k0_off32 (v199 : BitVec 32) : Fin 3 → Nat :=
  let c0_185 : Index := 0#32
  let v203 : Index := Scalar.indexCast v199
  let c0_186 : Index := 0#32
  ![0, v203.toNat, 0]

def k0_chk16 (v199 : BitVec 32) : Prop :=
  (∀ a, (k0_off32 v199) a + S1x30x60.size a ≤ S1x2048x60.size a)
instance k0_chk16.dec : ∀ (v199 : BitVec 32), Decidable (k0_chk16 v199) := fun v199 => decidable_of_iff' _ (Iff.of_eq (k0_chk16.eq_1 v199))
theorem k0_off32_inb : ∀ (v199 : BitVec 32) (k0_hw16 : k0_chk16 v199), ∀ a, (k0_off32 v199) a + S1x30x60.size a ≤ S1x2048x60.size a := fun v199 k0_hw16 => k0_hw16

def k0_off33 (i : grid0.Coords) : Fin 3 → Nat :=
  let arg0 : BitVec 32 := BitVec.ofNat 32 (i 0).val
  let v224 : Index := Scalar.indexCast arg0
  let c8 : Index := 8#32
  let c0_206 : Index := 0#32
  ![v224.toNat, 8, 0]
def k0_off34 (i : grid0.Coords) : Fin 3 → Nat :=
  let arg0 : BitVec 32 := BitVec.ofNat 32 (i 0).val
  let v226 : Index := Scalar.indexCast arg0
  let c8_207 : Index := 8#32
  let c1_208 : Index := 1#32
  ![v226.toNat, 8, 1]
def k0_off35 (v225 : BitVec 32) : Fin 3 → Nat :=
  let c0_209 : Index := 0#32
  let v228 : Index := Scalar.indexCast v225
  let c0_210 : Index := 0#32
  ![0, v228.toNat, 0]

def k0_chk17 (v225 : BitVec 32) : Prop :=
  (∀ a, (k0_off35 v225) a + S1x30x60.size a ≤ S1x2048x60.size a)
instance k0_chk17.dec : ∀ (v225 : BitVec 32), Decidable (k0_chk17 v225) := fun v225 => decidable_of_iff' _ (Iff.of_eq (k0_chk17.eq_1 v225))
theorem k0_off35_inb : ∀ (v225 : BitVec 32) (k0_hw17 : k0_chk17 v225), ∀ a, (k0_off35 v225) a + S1x30x60.size a ≤ S1x2048x60.size a := fun v225 k0_hw17 => k0_hw17

def k0_off36 (v227 : BitVec 32) : Fin 3 → Nat :=
  let c0_211 : Index := 0#32
  let v231 : Index := Scalar.indexCast v227
  let c0_212 : Index := 0#32
  ![0, v231.toNat, 0]

def k0_chk18 (v227 : BitVec 32) : Prop :=
  (∀ a, (k0_off36 v227) a + S1x30x60.size a ≤ S1x2048x60.size a)
instance k0_chk18.dec : ∀ (v227 : BitVec 32), Decidable (k0_chk18 v227) := fun v227 => decidable_of_iff' _ (Iff.of_eq (k0_chk18.eq_1 v227))
theorem k0_off36_inb : ∀ (v227 : BitVec 32) (k0_hw18 : k0_chk18 v227), ∀ a, (k0_off36 v227) a + S1x30x60.size a ≤ S1x2048x60.size a := fun v227 k0_hw18 => k0_hw18

def k0_off37 (i : grid0.Coords) : Fin 3 → Nat :=
  let arg0 : BitVec 32 := BitVec.ofNat 32 (i 0).val
  let v252 : Index := Scalar.indexCast arg0
  let c9 : Index := 9#32
  let c0_232 : Index := 0#32
  ![v252.toNat, 9, 0]
def k0_off38 (i : grid0.Coords) : Fin 3 → Nat :=
  let arg0 : BitVec 32 := BitVec.ofNat 32 (i 0).val
  let v254 : Index := Scalar.indexCast arg0
  let c9_233 : Index := 9#32
  let c1_234 : Index := 1#32
  ![v254.toNat, 9, 1]
def k0_off39 (v253 : BitVec 32) : Fin 3 → Nat :=
  let c0_235 : Index := 0#32
  let v256 : Index := Scalar.indexCast v253
  let c0_236 : Index := 0#32
  ![0, v256.toNat, 0]

def k0_chk19 (v253 : BitVec 32) : Prop :=
  (∀ a, (k0_off39 v253) a + S1x30x60.size a ≤ S1x2048x60.size a)
instance k0_chk19.dec : ∀ (v253 : BitVec 32), Decidable (k0_chk19 v253) := fun v253 => decidable_of_iff' _ (Iff.of_eq (k0_chk19.eq_1 v253))
theorem k0_off39_inb : ∀ (v253 : BitVec 32) (k0_hw19 : k0_chk19 v253), ∀ a, (k0_off39 v253) a + S1x30x60.size a ≤ S1x2048x60.size a := fun v253 k0_hw19 => k0_hw19

def k0_off40 (v255 : BitVec 32) : Fin 3 → Nat :=
  let c0_237 : Index := 0#32
  let v259 : Index := Scalar.indexCast v255
  let c0_238 : Index := 0#32
  ![0, v259.toNat, 0]

def k0_chk20 (v255 : BitVec 32) : Prop :=
  (∀ a, (k0_off40 v255) a + S1x30x60.size a ≤ S1x2048x60.size a)
instance k0_chk20.dec : ∀ (v255 : BitVec 32), Decidable (k0_chk20 v255) := fun v255 => decidable_of_iff' _ (Iff.of_eq (k0_chk20.eq_1 v255))
theorem k0_off40_inb : ∀ (v255 : BitVec 32) (k0_hw20 : k0_chk20 v255), ∀ a, (k0_off40 v255) a + S1x30x60.size a ≤ S1x2048x60.size a := fun v255 k0_hw20 => k0_hw20

def k0_off41 (i : grid0.Coords) : Fin 3 → Nat :=
  let arg0 : BitVec 32 := BitVec.ofNat 32 (i 0).val
  let v280 : Index := Scalar.indexCast arg0
  let c10 : Index := 10#32
  let c0_258 : Index := 0#32
  ![v280.toNat, 10, 0]
def k0_off42 (i : grid0.Coords) : Fin 3 → Nat :=
  let arg0 : BitVec 32 := BitVec.ofNat 32 (i 0).val
  let v282 : Index := Scalar.indexCast arg0
  let c10_259 : Index := 10#32
  let c1_260 : Index := 1#32
  ![v282.toNat, 10, 1]
def k0_off43 (v281 : BitVec 32) : Fin 3 → Nat :=
  let c0_261 : Index := 0#32
  let v284 : Index := Scalar.indexCast v281
  let c0_262 : Index := 0#32
  ![0, v284.toNat, 0]

def k0_chk21 (v281 : BitVec 32) : Prop :=
  (∀ a, (k0_off43 v281) a + S1x30x60.size a ≤ S1x2048x60.size a)
instance k0_chk21.dec : ∀ (v281 : BitVec 32), Decidable (k0_chk21 v281) := fun v281 => decidable_of_iff' _ (Iff.of_eq (k0_chk21.eq_1 v281))
theorem k0_off43_inb : ∀ (v281 : BitVec 32) (k0_hw21 : k0_chk21 v281), ∀ a, (k0_off43 v281) a + S1x30x60.size a ≤ S1x2048x60.size a := fun v281 k0_hw21 => k0_hw21

def k0_off44 (v283 : BitVec 32) : Fin 3 → Nat :=
  let c0_263 : Index := 0#32
  let v287 : Index := Scalar.indexCast v283
  let c0_264 : Index := 0#32
  ![0, v287.toNat, 0]

def k0_chk22 (v283 : BitVec 32) : Prop :=
  (∀ a, (k0_off44 v283) a + S1x30x60.size a ≤ S1x2048x60.size a)
instance k0_chk22.dec : ∀ (v283 : BitVec 32), Decidable (k0_chk22 v283) := fun v283 => decidable_of_iff' _ (Iff.of_eq (k0_chk22.eq_1 v283))
theorem k0_off44_inb : ∀ (v283 : BitVec 32) (k0_hw22 : k0_chk22 v283), ∀ a, (k0_off44 v283) a + S1x30x60.size a ≤ S1x2048x60.size a := fun v283 k0_hw22 => k0_hw22

def k0_off45 (i : grid0.Coords) : Fin 3 → Nat :=
  let arg0 : BitVec 32 := BitVec.ofNat 32 (i 0).val
  let v308 : Index := Scalar.indexCast arg0
  let c11 : Index := 11#32
  let c0_284 : Index := 0#32
  ![v308.toNat, 11, 0]
def k0_off46 (i : grid0.Coords) : Fin 3 → Nat :=
  let arg0 : BitVec 32 := BitVec.ofNat 32 (i 0).val
  let v310 : Index := Scalar.indexCast arg0
  let c11_285 : Index := 11#32
  let c1_286 : Index := 1#32
  ![v310.toNat, 11, 1]
def k0_off47 (v309 : BitVec 32) : Fin 3 → Nat :=
  let c0_287 : Index := 0#32
  let v312 : Index := Scalar.indexCast v309
  let c0_288 : Index := 0#32
  ![0, v312.toNat, 0]

def k0_chk23 (v309 : BitVec 32) : Prop :=
  (∀ a, (k0_off47 v309) a + S1x30x60.size a ≤ S1x2048x60.size a)
instance k0_chk23.dec : ∀ (v309 : BitVec 32), Decidable (k0_chk23 v309) := fun v309 => decidable_of_iff' _ (Iff.of_eq (k0_chk23.eq_1 v309))
theorem k0_off47_inb : ∀ (v309 : BitVec 32) (k0_hw23 : k0_chk23 v309), ∀ a, (k0_off47 v309) a + S1x30x60.size a ≤ S1x2048x60.size a := fun v309 k0_hw23 => k0_hw23

def k0_off48 (v311 : BitVec 32) : Fin 3 → Nat :=
  let c0_289 : Index := 0#32
  let v315 : Index := Scalar.indexCast v311
  let c0_290 : Index := 0#32
  ![0, v315.toNat, 0]

def k0_chk24 (v311 : BitVec 32) : Prop :=
  (∀ a, (k0_off48 v311) a + S1x30x60.size a ≤ S1x2048x60.size a)
instance k0_chk24.dec : ∀ (v311 : BitVec 32), Decidable (k0_chk24 v311) := fun v311 => decidable_of_iff' _ (Iff.of_eq (k0_chk24.eq_1 v311))
theorem k0_off48_inb : ∀ (v311 : BitVec 32) (k0_hw24 : k0_chk24 v311), ∀ a, (k0_off48 v311) a + S1x30x60.size a ≤ S1x2048x60.size a := fun v311 k0_hw24 => k0_hw24

def k0_off49 (i : grid0.Coords) : Fin 3 → Nat :=
  let arg0 : BitVec 32 := BitVec.ofNat 32 (i 0).val
  let v336 : Index := Scalar.indexCast arg0
  let c12 : Index := 12#32
  let c0_310 : Index := 0#32
  ![v336.toNat, 12, 0]
def k0_off50 (i : grid0.Coords) : Fin 3 → Nat :=
  let arg0 : BitVec 32 := BitVec.ofNat 32 (i 0).val
  let v338 : Index := Scalar.indexCast arg0
  let c12_311 : Index := 12#32
  let c1_312 : Index := 1#32
  ![v338.toNat, 12, 1]
def k0_off51 (v337 : BitVec 32) : Fin 3 → Nat :=
  let c0_313 : Index := 0#32
  let v340 : Index := Scalar.indexCast v337
  let c0_314 : Index := 0#32
  ![0, v340.toNat, 0]

def k0_chk25 (v337 : BitVec 32) : Prop :=
  (∀ a, (k0_off51 v337) a + S1x30x60.size a ≤ S1x2048x60.size a)
instance k0_chk25.dec : ∀ (v337 : BitVec 32), Decidable (k0_chk25 v337) := fun v337 => decidable_of_iff' _ (Iff.of_eq (k0_chk25.eq_1 v337))
theorem k0_off51_inb : ∀ (v337 : BitVec 32) (k0_hw25 : k0_chk25 v337), ∀ a, (k0_off51 v337) a + S1x30x60.size a ≤ S1x2048x60.size a := fun v337 k0_hw25 => k0_hw25

def k0_off52 (v339 : BitVec 32) : Fin 3 → Nat :=
  let c0_315 : Index := 0#32
  let v343 : Index := Scalar.indexCast v339
  let c0_316 : Index := 0#32
  ![0, v343.toNat, 0]

def k0_chk26 (v339 : BitVec 32) : Prop :=
  (∀ a, (k0_off52 v339) a + S1x30x60.size a ≤ S1x2048x60.size a)
instance k0_chk26.dec : ∀ (v339 : BitVec 32), Decidable (k0_chk26 v339) := fun v339 => decidable_of_iff' _ (Iff.of_eq (k0_chk26.eq_1 v339))
theorem k0_off52_inb : ∀ (v339 : BitVec 32) (k0_hw26 : k0_chk26 v339), ∀ a, (k0_off52 v339) a + S1x30x60.size a ≤ S1x2048x60.size a := fun v339 k0_hw26 => k0_hw26

def k0_off53 (i : grid0.Coords) : Fin 3 → Nat :=
  let arg0 : BitVec 32 := BitVec.ofNat 32 (i 0).val
  let v364 : Index := Scalar.indexCast arg0
  let c13 : Index := 13#32
  let c0_336 : Index := 0#32
  ![v364.toNat, 13, 0]
def k0_off54 (i : grid0.Coords) : Fin 3 → Nat :=
  let arg0 : BitVec 32 := BitVec.ofNat 32 (i 0).val
  let v366 : Index := Scalar.indexCast arg0
  let c13_337 : Index := 13#32
  let c1_338 : Index := 1#32
  ![v366.toNat, 13, 1]
def k0_off55 (v365 : BitVec 32) : Fin 3 → Nat :=
  let c0_339 : Index := 0#32
  let v368 : Index := Scalar.indexCast v365
  let c0_340 : Index := 0#32
  ![0, v368.toNat, 0]

def k0_chk27 (v365 : BitVec 32) : Prop :=
  (∀ a, (k0_off55 v365) a + S1x30x60.size a ≤ S1x2048x60.size a)
instance k0_chk27.dec : ∀ (v365 : BitVec 32), Decidable (k0_chk27 v365) := fun v365 => decidable_of_iff' _ (Iff.of_eq (k0_chk27.eq_1 v365))
theorem k0_off55_inb : ∀ (v365 : BitVec 32) (k0_hw27 : k0_chk27 v365), ∀ a, (k0_off55 v365) a + S1x30x60.size a ≤ S1x2048x60.size a := fun v365 k0_hw27 => k0_hw27

def k0_off56 (v367 : BitVec 32) : Fin 3 → Nat :=
  let c0_341 : Index := 0#32
  let v371 : Index := Scalar.indexCast v367
  let c0_342 : Index := 0#32
  ![0, v371.toNat, 0]

def k0_chk28 (v367 : BitVec 32) : Prop :=
  (∀ a, (k0_off56 v367) a + S1x30x60.size a ≤ S1x2048x60.size a)
instance k0_chk28.dec : ∀ (v367 : BitVec 32), Decidable (k0_chk28 v367) := fun v367 => decidable_of_iff' _ (Iff.of_eq (k0_chk28.eq_1 v367))
theorem k0_off56_inb : ∀ (v367 : BitVec 32) (k0_hw28 : k0_chk28 v367), ∀ a, (k0_off56 v367) a + S1x30x60.size a ≤ S1x2048x60.size a := fun v367 k0_hw28 => k0_hw28

def k0_off57 (i : grid0.Coords) : Fin 3 → Nat :=
  let arg0 : BitVec 32 := BitVec.ofNat 32 (i 0).val
  let v392 : Index := Scalar.indexCast arg0
  let c14 : Index := 14#32
  let c0_362 : Index := 0#32
  ![v392.toNat, 14, 0]
def k0_off58 (i : grid0.Coords) : Fin 3 → Nat :=
  let arg0 : BitVec 32 := BitVec.ofNat 32 (i 0).val
  let v394 : Index := Scalar.indexCast arg0
  let c14_363 : Index := 14#32
  let c1_364 : Index := 1#32
  ![v394.toNat, 14, 1]
def k0_off59 (v393 : BitVec 32) : Fin 3 → Nat :=
  let c0_365 : Index := 0#32
  let v396 : Index := Scalar.indexCast v393
  let c0_366 : Index := 0#32
  ![0, v396.toNat, 0]

def k0_chk29 (v393 : BitVec 32) : Prop :=
  (∀ a, (k0_off59 v393) a + S1x30x60.size a ≤ S1x2048x60.size a)
instance k0_chk29.dec : ∀ (v393 : BitVec 32), Decidable (k0_chk29 v393) := fun v393 => decidable_of_iff' _ (Iff.of_eq (k0_chk29.eq_1 v393))
theorem k0_off59_inb : ∀ (v393 : BitVec 32) (k0_hw29 : k0_chk29 v393), ∀ a, (k0_off59 v393) a + S1x30x60.size a ≤ S1x2048x60.size a := fun v393 k0_hw29 => k0_hw29

def k0_off60 (v395 : BitVec 32) : Fin 3 → Nat :=
  let c0_367 : Index := 0#32
  let v399 : Index := Scalar.indexCast v395
  let c0_368 : Index := 0#32
  ![0, v399.toNat, 0]

def k0_chk30 (v395 : BitVec 32) : Prop :=
  (∀ a, (k0_off60 v395) a + S1x30x60.size a ≤ S1x2048x60.size a)
instance k0_chk30.dec : ∀ (v395 : BitVec 32), Decidable (k0_chk30 v395) := fun v395 => decidable_of_iff' _ (Iff.of_eq (k0_chk30.eq_1 v395))
theorem k0_off60_inb : ∀ (v395 : BitVec 32) (k0_hw30 : k0_chk30 v395), ∀ a, (k0_off60 v395) a + S1x30x60.size a ≤ S1x2048x60.size a := fun v395 k0_hw30 => k0_hw30

def k0_off61 (i : grid0.Coords) : Fin 3 → Nat :=
  let arg0 : BitVec 32 := BitVec.ofNat 32 (i 0).val
  let v420 : Index := Scalar.indexCast arg0
  let c15 : Index := 15#32
  let c0_388 : Index := 0#32
  ![v420.toNat, 15, 0]
def k0_off62 (i : grid0.Coords) : Fin 3 → Nat :=
  let arg0 : BitVec 32 := BitVec.ofNat 32 (i 0).val
  let v422 : Index := Scalar.indexCast arg0
  let c15_389 : Index := 15#32
  let c1_390 : Index := 1#32
  ![v422.toNat, 15, 1]
def k0_off63 (v421 : BitVec 32) : Fin 3 → Nat :=
  let c0_391 : Index := 0#32
  let v424 : Index := Scalar.indexCast v421
  let c0_392 : Index := 0#32
  ![0, v424.toNat, 0]

def k0_chk31 (v421 : BitVec 32) : Prop :=
  (∀ a, (k0_off63 v421) a + S1x30x60.size a ≤ S1x2048x60.size a)
instance k0_chk31.dec : ∀ (v421 : BitVec 32), Decidable (k0_chk31 v421) := fun v421 => decidable_of_iff' _ (Iff.of_eq (k0_chk31.eq_1 v421))
theorem k0_off63_inb : ∀ (v421 : BitVec 32) (k0_hw31 : k0_chk31 v421), ∀ a, (k0_off63 v421) a + S1x30x60.size a ≤ S1x2048x60.size a := fun v421 k0_hw31 => k0_hw31

def k0_off64 (v423 : BitVec 32) : Fin 3 → Nat :=
  let c0_393 : Index := 0#32
  let v427 : Index := Scalar.indexCast v423
  let c0_394 : Index := 0#32
  ![0, v427.toNat, 0]

def k0_chk32 (v423 : BitVec 32) : Prop :=
  (∀ a, (k0_off64 v423) a + S1x30x60.size a ≤ S1x2048x60.size a)
instance k0_chk32.dec : ∀ (v423 : BitVec 32), Decidable (k0_chk32 v423) := fun v423 => decidable_of_iff' _ (Iff.of_eq (k0_chk32.eq_1 v423))
theorem k0_off64_inb : ∀ (v423 : BitVec 32) (k0_hw32 : k0_chk32 v423), ∀ a, (k0_off64 v423) a + S1x30x60.size a ≤ S1x2048x60.size a := fun v423 k0_hw32 => k0_hw32

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x2048x60 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x60 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x16x30x30 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x16x30x30x121 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  numel1_S1x1x1 : S1x1x1.numel = 1
  h_S1x30x60 : 0 < S1x30x60.numel
  shapeCasts_S1x30x60_S30x60 : S1x30x60.ShapeCasts S30x60
  inb_S1x16x30x30_S1x1x30x30_0_0_0_0 : ∀ a, (![0, 0, 0, 0] : Fin 4 → Nat) a + S1x1x30x30.size a ≤ S1x16x30x30.size a
  h_S1x1x30x30 : 0 < S1x1x30x30.numel
  shapeCasts_S1x1x30x30_S30x30 : S1x1x30x30.ShapeCasts S30x30
  shapeCasts_S30x60_S1x30x60 : S30x60.ShapeCasts S1x30x60
  shapeCasts_S1x30x60_S1x30x60 : S1x30x60.ShapeCasts S1x30x60
  broadcasts_S1x30x60_S30x30x60 : S1x30x60.Broadcasts S30x30x60
  shapeCasts_S30x60_S30x1x60 : S30x60.ShapeCasts S30x1x60
  shapeCasts_S30x1x60_S30x1x60 : S30x1x60.ShapeCasts S30x1x60
  broadcasts_S30x1x60_S30x30x60 : S30x1x60.Broadcasts S30x30x60
  inb_S1x16x30x30x121_S1x1x30x30x60_0_0_0_0_0 : ∀ a, (![0, 0, 0, 0, 0] : Fin 5 → Nat) a + S1x1x30x30x60.size a ≤ S1x16x30x30x121.size a
  h_S1x1x30x30x60 : 0 < S1x1x30x30x60.numel
  shapeCasts_S1x1x30x30x60_S30x30x60 : S1x1x30x30x60.ShapeCasts S30x30x60
  shapeCasts_S30x30x60_S1x1x30x30x60 : S30x30x60.ShapeCasts S1x1x30x30x60
  inb_S1x16x30x30x121_S1x1x30x30x60_0_0_0_0_60 : ∀ a, (![0, 0, 0, 0, 60] : Fin 5 → Nat) a + S1x1x30x30x60.size a ≤ S1x16x30x30x121.size a
  shapeCasts_S30x30_S30x30x1 : S30x30.ShapeCasts S30x30x1
  inb_S1x16x30x30x121_S1x1x30x30x1_0_0_0_0_120 : ∀ a, (![0, 0, 0, 0, 120] : Fin 5 → Nat) a + S1x1x30x30x1.size a ≤ S1x16x30x30x121.size a
  h_S1x1x30x30x1 : 0 < S1x1x30x30x1.numel
  shapeCasts_S1x1x30x30x1_S30x30x1 : S1x1x30x30x1.ShapeCasts S30x30x1
  shapeCasts_S30x30x1_S1x1x30x30x1 : S30x30x1.ShapeCasts S1x1x30x30x1
  inb_S1x16x30x30_S1x1x30x30_0_1_0_0 : ∀ a, (![0, 1, 0, 0] : Fin 4 → Nat) a + S1x1x30x30.size a ≤ S1x16x30x30.size a
  inb_S1x16x30x30x121_S1x1x30x30x60_0_1_0_0_0 : ∀ a, (![0, 1, 0, 0, 0] : Fin 5 → Nat) a + S1x1x30x30x60.size a ≤ S1x16x30x30x121.size a
  inb_S1x16x30x30x121_S1x1x30x30x60_0_1_0_0_60 : ∀ a, (![0, 1, 0, 0, 60] : Fin 5 → Nat) a + S1x1x30x30x60.size a ≤ S1x16x30x30x121.size a
  inb_S1x16x30x30x121_S1x1x30x30x1_0_1_0_0_120 : ∀ a, (![0, 1, 0, 0, 120] : Fin 5 → Nat) a + S1x1x30x30x1.size a ≤ S1x16x30x30x121.size a
  inb_S1x16x30x30_S1x1x30x30_0_2_0_0 : ∀ a, (![0, 2, 0, 0] : Fin 4 → Nat) a + S1x1x30x30.size a ≤ S1x16x30x30.size a
  inb_S1x16x30x30x121_S1x1x30x30x60_0_2_0_0_0 : ∀ a, (![0, 2, 0, 0, 0] : Fin 5 → Nat) a + S1x1x30x30x60.size a ≤ S1x16x30x30x121.size a
  inb_S1x16x30x30x121_S1x1x30x30x60_0_2_0_0_60 : ∀ a, (![0, 2, 0, 0, 60] : Fin 5 → Nat) a + S1x1x30x30x60.size a ≤ S1x16x30x30x121.size a
  inb_S1x16x30x30x121_S1x1x30x30x1_0_2_0_0_120 : ∀ a, (![0, 2, 0, 0, 120] : Fin 5 → Nat) a + S1x1x30x30x1.size a ≤ S1x16x30x30x121.size a
  inb_S1x16x30x30_S1x1x30x30_0_3_0_0 : ∀ a, (![0, 3, 0, 0] : Fin 4 → Nat) a + S1x1x30x30.size a ≤ S1x16x30x30.size a
  inb_S1x16x30x30x121_S1x1x30x30x60_0_3_0_0_0 : ∀ a, (![0, 3, 0, 0, 0] : Fin 5 → Nat) a + S1x1x30x30x60.size a ≤ S1x16x30x30x121.size a
  inb_S1x16x30x30x121_S1x1x30x30x60_0_3_0_0_60 : ∀ a, (![0, 3, 0, 0, 60] : Fin 5 → Nat) a + S1x1x30x30x60.size a ≤ S1x16x30x30x121.size a
  inb_S1x16x30x30x121_S1x1x30x30x1_0_3_0_0_120 : ∀ a, (![0, 3, 0, 0, 120] : Fin 5 → Nat) a + S1x1x30x30x1.size a ≤ S1x16x30x30x121.size a
  inb_S1x16x30x30_S1x1x30x30_0_4_0_0 : ∀ a, (![0, 4, 0, 0] : Fin 4 → Nat) a + S1x1x30x30.size a ≤ S1x16x30x30.size a
  inb_S1x16x30x30x121_S1x1x30x30x60_0_4_0_0_0 : ∀ a, (![0, 4, 0, 0, 0] : Fin 5 → Nat) a + S1x1x30x30x60.size a ≤ S1x16x30x30x121.size a
  inb_S1x16x30x30x121_S1x1x30x30x60_0_4_0_0_60 : ∀ a, (![0, 4, 0, 0, 60] : Fin 5 → Nat) a + S1x1x30x30x60.size a ≤ S1x16x30x30x121.size a
  inb_S1x16x30x30x121_S1x1x30x30x1_0_4_0_0_120 : ∀ a, (![0, 4, 0, 0, 120] : Fin 5 → Nat) a + S1x1x30x30x1.size a ≤ S1x16x30x30x121.size a
  inb_S1x16x30x30_S1x1x30x30_0_5_0_0 : ∀ a, (![0, 5, 0, 0] : Fin 4 → Nat) a + S1x1x30x30.size a ≤ S1x16x30x30.size a
  inb_S1x16x30x30x121_S1x1x30x30x60_0_5_0_0_0 : ∀ a, (![0, 5, 0, 0, 0] : Fin 5 → Nat) a + S1x1x30x30x60.size a ≤ S1x16x30x30x121.size a
  inb_S1x16x30x30x121_S1x1x30x30x60_0_5_0_0_60 : ∀ a, (![0, 5, 0, 0, 60] : Fin 5 → Nat) a + S1x1x30x30x60.size a ≤ S1x16x30x30x121.size a
  inb_S1x16x30x30x121_S1x1x30x30x1_0_5_0_0_120 : ∀ a, (![0, 5, 0, 0, 120] : Fin 5 → Nat) a + S1x1x30x30x1.size a ≤ S1x16x30x30x121.size a
  inb_S1x16x30x30_S1x1x30x30_0_6_0_0 : ∀ a, (![0, 6, 0, 0] : Fin 4 → Nat) a + S1x1x30x30.size a ≤ S1x16x30x30.size a
  inb_S1x16x30x30x121_S1x1x30x30x60_0_6_0_0_0 : ∀ a, (![0, 6, 0, 0, 0] : Fin 5 → Nat) a + S1x1x30x30x60.size a ≤ S1x16x30x30x121.size a
  inb_S1x16x30x30x121_S1x1x30x30x60_0_6_0_0_60 : ∀ a, (![0, 6, 0, 0, 60] : Fin 5 → Nat) a + S1x1x30x30x60.size a ≤ S1x16x30x30x121.size a
  inb_S1x16x30x30x121_S1x1x30x30x1_0_6_0_0_120 : ∀ a, (![0, 6, 0, 0, 120] : Fin 5 → Nat) a + S1x1x30x30x1.size a ≤ S1x16x30x30x121.size a
  inb_S1x16x30x30_S1x1x30x30_0_7_0_0 : ∀ a, (![0, 7, 0, 0] : Fin 4 → Nat) a + S1x1x30x30.size a ≤ S1x16x30x30.size a
  inb_S1x16x30x30x121_S1x1x30x30x60_0_7_0_0_0 : ∀ a, (![0, 7, 0, 0, 0] : Fin 5 → Nat) a + S1x1x30x30x60.size a ≤ S1x16x30x30x121.size a
  inb_S1x16x30x30x121_S1x1x30x30x60_0_7_0_0_60 : ∀ a, (![0, 7, 0, 0, 60] : Fin 5 → Nat) a + S1x1x30x30x60.size a ≤ S1x16x30x30x121.size a
  inb_S1x16x30x30x121_S1x1x30x30x1_0_7_0_0_120 : ∀ a, (![0, 7, 0, 0, 120] : Fin 5 → Nat) a + S1x1x30x30x1.size a ≤ S1x16x30x30x121.size a
  inb_S1x16x30x30_S1x1x30x30_0_8_0_0 : ∀ a, (![0, 8, 0, 0] : Fin 4 → Nat) a + S1x1x30x30.size a ≤ S1x16x30x30.size a
  inb_S1x16x30x30x121_S1x1x30x30x60_0_8_0_0_0 : ∀ a, (![0, 8, 0, 0, 0] : Fin 5 → Nat) a + S1x1x30x30x60.size a ≤ S1x16x30x30x121.size a
  inb_S1x16x30x30x121_S1x1x30x30x60_0_8_0_0_60 : ∀ a, (![0, 8, 0, 0, 60] : Fin 5 → Nat) a + S1x1x30x30x60.size a ≤ S1x16x30x30x121.size a
  inb_S1x16x30x30x121_S1x1x30x30x1_0_8_0_0_120 : ∀ a, (![0, 8, 0, 0, 120] : Fin 5 → Nat) a + S1x1x30x30x1.size a ≤ S1x16x30x30x121.size a
  inb_S1x16x30x30_S1x1x30x30_0_9_0_0 : ∀ a, (![0, 9, 0, 0] : Fin 4 → Nat) a + S1x1x30x30.size a ≤ S1x16x30x30.size a
  inb_S1x16x30x30x121_S1x1x30x30x60_0_9_0_0_0 : ∀ a, (![0, 9, 0, 0, 0] : Fin 5 → Nat) a + S1x1x30x30x60.size a ≤ S1x16x30x30x121.size a
  inb_S1x16x30x30x121_S1x1x30x30x60_0_9_0_0_60 : ∀ a, (![0, 9, 0, 0, 60] : Fin 5 → Nat) a + S1x1x30x30x60.size a ≤ S1x16x30x30x121.size a
  inb_S1x16x30x30x121_S1x1x30x30x1_0_9_0_0_120 : ∀ a, (![0, 9, 0, 0, 120] : Fin 5 → Nat) a + S1x1x30x30x1.size a ≤ S1x16x30x30x121.size a
  inb_S1x16x30x30_S1x1x30x30_0_10_0_0 : ∀ a, (![0, 10, 0, 0] : Fin 4 → Nat) a + S1x1x30x30.size a ≤ S1x16x30x30.size a
  inb_S1x16x30x30x121_S1x1x30x30x60_0_10_0_0_0 : ∀ a, (![0, 10, 0, 0, 0] : Fin 5 → Nat) a + S1x1x30x30x60.size a ≤ S1x16x30x30x121.size a
  inb_S1x16x30x30x121_S1x1x30x30x60_0_10_0_0_60 : ∀ a, (![0, 10, 0, 0, 60] : Fin 5 → Nat) a + S1x1x30x30x60.size a ≤ S1x16x30x30x121.size a
  inb_S1x16x30x30x121_S1x1x30x30x1_0_10_0_0_120 : ∀ a, (![0, 10, 0, 0, 120] : Fin 5 → Nat) a + S1x1x30x30x1.size a ≤ S1x16x30x30x121.size a
  inb_S1x16x30x30_S1x1x30x30_0_11_0_0 : ∀ a, (![0, 11, 0, 0] : Fin 4 → Nat) a + S1x1x30x30.size a ≤ S1x16x30x30.size a
  inb_S1x16x30x30x121_S1x1x30x30x60_0_11_0_0_0 : ∀ a, (![0, 11, 0, 0, 0] : Fin 5 → Nat) a + S1x1x30x30x60.size a ≤ S1x16x30x30x121.size a
  inb_S1x16x30x30x121_S1x1x30x30x60_0_11_0_0_60 : ∀ a, (![0, 11, 0, 0, 60] : Fin 5 → Nat) a + S1x1x30x30x60.size a ≤ S1x16x30x30x121.size a
  inb_S1x16x30x30x121_S1x1x30x30x1_0_11_0_0_120 : ∀ a, (![0, 11, 0, 0, 120] : Fin 5 → Nat) a + S1x1x30x30x1.size a ≤ S1x16x30x30x121.size a
  inb_S1x16x30x30_S1x1x30x30_0_12_0_0 : ∀ a, (![0, 12, 0, 0] : Fin 4 → Nat) a + S1x1x30x30.size a ≤ S1x16x30x30.size a
  inb_S1x16x30x30x121_S1x1x30x30x60_0_12_0_0_0 : ∀ a, (![0, 12, 0, 0, 0] : Fin 5 → Nat) a + S1x1x30x30x60.size a ≤ S1x16x30x30x121.size a
  inb_S1x16x30x30x121_S1x1x30x30x60_0_12_0_0_60 : ∀ a, (![0, 12, 0, 0, 60] : Fin 5 → Nat) a + S1x1x30x30x60.size a ≤ S1x16x30x30x121.size a
  inb_S1x16x30x30x121_S1x1x30x30x1_0_12_0_0_120 : ∀ a, (![0, 12, 0, 0, 120] : Fin 5 → Nat) a + S1x1x30x30x1.size a ≤ S1x16x30x30x121.size a
  inb_S1x16x30x30_S1x1x30x30_0_13_0_0 : ∀ a, (![0, 13, 0, 0] : Fin 4 → Nat) a + S1x1x30x30.size a ≤ S1x16x30x30.size a
  inb_S1x16x30x30x121_S1x1x30x30x60_0_13_0_0_0 : ∀ a, (![0, 13, 0, 0, 0] : Fin 5 → Nat) a + S1x1x30x30x60.size a ≤ S1x16x30x30x121.size a
  inb_S1x16x30x30x121_S1x1x30x30x60_0_13_0_0_60 : ∀ a, (![0, 13, 0, 0, 60] : Fin 5 → Nat) a + S1x1x30x30x60.size a ≤ S1x16x30x30x121.size a
  inb_S1x16x30x30x121_S1x1x30x30x1_0_13_0_0_120 : ∀ a, (![0, 13, 0, 0, 120] : Fin 5 → Nat) a + S1x1x30x30x1.size a ≤ S1x16x30x30x121.size a
  inb_S1x16x30x30_S1x1x30x30_0_14_0_0 : ∀ a, (![0, 14, 0, 0] : Fin 4 → Nat) a + S1x1x30x30.size a ≤ S1x16x30x30.size a
  inb_S1x16x30x30x121_S1x1x30x30x60_0_14_0_0_0 : ∀ a, (![0, 14, 0, 0, 0] : Fin 5 → Nat) a + S1x1x30x30x60.size a ≤ S1x16x30x30x121.size a
  inb_S1x16x30x30x121_S1x1x30x30x60_0_14_0_0_60 : ∀ a, (![0, 14, 0, 0, 60] : Fin 5 → Nat) a + S1x1x30x30x60.size a ≤ S1x16x30x30x121.size a
  inb_S1x16x30x30x121_S1x1x30x30x1_0_14_0_0_120 : ∀ a, (![0, 14, 0, 0, 120] : Fin 5 → Nat) a + S1x1x30x30x1.size a ≤ S1x16x30x30x121.size a
  inb_S1x16x30x30_S1x1x30x30_0_15_0_0 : ∀ a, (![0, 15, 0, 0] : Fin 4 → Nat) a + S1x1x30x30.size a ≤ S1x16x30x30.size a
  inb_S1x16x30x30x121_S1x1x30x30x60_0_15_0_0_0 : ∀ a, (![0, 15, 0, 0, 0] : Fin 5 → Nat) a + S1x1x30x30x60.size a ≤ S1x16x30x30x121.size a
  inb_S1x16x30x30x121_S1x1x30x30x60_0_15_0_0_60 : ∀ a, (![0, 15, 0, 0, 60] : Fin 5 → Nat) a + S1x1x30x30x60.size a ≤ S1x16x30x30x121.size a
  inb_S1x16x30x30x121_S1x1x30x30x1_0_15_0_0_120 : ∀ a, (![0, 15, 0, 0, 120] : Fin 5 → Nat) a + S1x1x30x30x1.size a ≤ S1x16x30x30x121.size a
  hrank0 : 0 < grid0.rank
  k0_off1_inb : ∀ i : grid0.Coords, ∀ a, (k0_off1 i) a + S1x1x1.size a ≤ S64x16x2.size a
  k0_off2_inb : ∀ i : grid0.Coords, ∀ a, (k0_off2 i) a + S1x1x1.size a ≤ S64x16x2.size a
  k0_off5_inb : ∀ i : grid0.Coords, ∀ a, (k0_off5 i) a + S1x1x1.size a ≤ S64x16x2.size a
  k0_off6_inb : ∀ i : grid0.Coords, ∀ a, (k0_off6 i) a + S1x1x1.size a ≤ S64x16x2.size a
  k0_off9_inb : ∀ i : grid0.Coords, ∀ a, (k0_off9 i) a + S1x1x1.size a ≤ S64x16x2.size a
  k0_off10_inb : ∀ i : grid0.Coords, ∀ a, (k0_off10 i) a + S1x1x1.size a ≤ S64x16x2.size a
  k0_off13_inb : ∀ i : grid0.Coords, ∀ a, (k0_off13 i) a + S1x1x1.size a ≤ S64x16x2.size a
  k0_off14_inb : ∀ i : grid0.Coords, ∀ a, (k0_off14 i) a + S1x1x1.size a ≤ S64x16x2.size a
  k0_off17_inb : ∀ i : grid0.Coords, ∀ a, (k0_off17 i) a + S1x1x1.size a ≤ S64x16x2.size a
  k0_off18_inb : ∀ i : grid0.Coords, ∀ a, (k0_off18 i) a + S1x1x1.size a ≤ S64x16x2.size a
  k0_off21_inb : ∀ i : grid0.Coords, ∀ a, (k0_off21 i) a + S1x1x1.size a ≤ S64x16x2.size a
  k0_off22_inb : ∀ i : grid0.Coords, ∀ a, (k0_off22 i) a + S1x1x1.size a ≤ S64x16x2.size a
  k0_off25_inb : ∀ i : grid0.Coords, ∀ a, (k0_off25 i) a + S1x1x1.size a ≤ S64x16x2.size a
  k0_off26_inb : ∀ i : grid0.Coords, ∀ a, (k0_off26 i) a + S1x1x1.size a ≤ S64x16x2.size a
  k0_off29_inb : ∀ i : grid0.Coords, ∀ a, (k0_off29 i) a + S1x1x1.size a ≤ S64x16x2.size a
  k0_off30_inb : ∀ i : grid0.Coords, ∀ a, (k0_off30 i) a + S1x1x1.size a ≤ S64x16x2.size a
  k0_off33_inb : ∀ i : grid0.Coords, ∀ a, (k0_off33 i) a + S1x1x1.size a ≤ S64x16x2.size a
  k0_off34_inb : ∀ i : grid0.Coords, ∀ a, (k0_off34 i) a + S1x1x1.size a ≤ S64x16x2.size a
  k0_off37_inb : ∀ i : grid0.Coords, ∀ a, (k0_off37 i) a + S1x1x1.size a ≤ S64x16x2.size a
  k0_off38_inb : ∀ i : grid0.Coords, ∀ a, (k0_off38 i) a + S1x1x1.size a ≤ S64x16x2.size a
  k0_off41_inb : ∀ i : grid0.Coords, ∀ a, (k0_off41 i) a + S1x1x1.size a ≤ S64x16x2.size a
  k0_off42_inb : ∀ i : grid0.Coords, ∀ a, (k0_off42 i) a + S1x1x1.size a ≤ S64x16x2.size a
  k0_off45_inb : ∀ i : grid0.Coords, ∀ a, (k0_off45 i) a + S1x1x1.size a ≤ S64x16x2.size a
  k0_off46_inb : ∀ i : grid0.Coords, ∀ a, (k0_off46 i) a + S1x1x1.size a ≤ S64x16x2.size a
  k0_off49_inb : ∀ i : grid0.Coords, ∀ a, (k0_off49 i) a + S1x1x1.size a ≤ S64x16x2.size a
  k0_off50_inb : ∀ i : grid0.Coords, ∀ a, (k0_off50 i) a + S1x1x1.size a ≤ S64x16x2.size a
  k0_off53_inb : ∀ i : grid0.Coords, ∀ a, (k0_off53 i) a + S1x1x1.size a ≤ S64x16x2.size a
  k0_off54_inb : ∀ i : grid0.Coords, ∀ a, (k0_off54 i) a + S1x1x1.size a ≤ S64x16x2.size a
  k0_off57_inb : ∀ i : grid0.Coords, ∀ a, (k0_off57 i) a + S1x1x1.size a ≤ S64x16x2.size a
  k0_off58_inb : ∀ i : grid0.Coords, ∀ a, (k0_off58 i) a + S1x1x1.size a ≤ S64x16x2.size a
  k0_off61_inb : ∀ i : grid0.Coords, ∀ a, (k0_off61 i) a + S1x1x1.size a ≤ S64x16x2.size a
  k0_off62_inb : ∀ i : grid0.Coords, ∀ a, (k0_off62 i) a + S1x1x1.size a ≤ S64x16x2.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x2048x60.size a ≤ S64x2048x60.size a
  hwx0_0 : ∀ i : grid0.Coords, EltTy.bits .f32 = 32 ∨ (Rect.block (s := S64x2048x60) S1x2048x60.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2048x60.size a ≤ S64x2048x60.size a
  hwx0_1 : ∀ i : grid0.Coords, EltTy.bits .f32 = 32 ∨ (Rect.block (s := S64x2048x60) S1x2048x60.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x16x30x30.size a ≤ S64x16x30x30.size a
  hwx0_2 : ∀ i : grid0.Coords, EltTy.bits .f32 = 32 ∨ (Rect.block (s := S64x16x30x30) S1x16x30x30.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x30x30x121.size a ≤ S64x16x30x30x121.size a
  hwx0_3 : ∀ i : grid0.Coords, EltTy.bits .f32 = 32 ∨ (Rect.block (s := S64x16x30x30x121) S1x16x30x30x121.size (cc0_transform_3 i) (hinb0_3 i)).WholeWords (EltTy.packing .f32)

variable [Facts₀]

abbrev spec0_0 : Pipeline.WinSpec sig grid0.rank :=
  Pipeline.WinSpec.ofSpec (Memref.whole main_arg0) S1x2048x60.size reads0_0 false false 2 stage0_0 sem0_0 nbuf0_0 hstage0_0

abbrev spec0_1 : Pipeline.WinSpec sig grid0.rank :=
  Pipeline.WinSpec.ofSpec (Memref.whole main_arg1) S1x2048x60.size reads0_1 false false 2 stage0_1 sem0_1 nbuf0_1 hstage0_1

abbrev spec0_2 : Pipeline.WinSpec sig grid0.rank :=
  Pipeline.WinSpec.ofSpec (Memref.whole main_arg2) S1x16x30x30.size reads0_2 false false 2 stage0_2 sem0_2 nbuf0_2 hstage0_2

abbrev spec0_3 : Pipeline.WinSpec sig grid0.rank :=
  Pipeline.WinSpec.ofSpec (Memref.whole main_v0) S1x16x30x30x121.size reads0_3 true false 2 stage0_3 sem0_3 nbuf0_3 hstage0_3

abbrev spec0 : Fin 4 → Pipeline.WinSpec sig grid0.rank := fun | 0 => spec0_0 | 1 => spec0_1 | 2 => spec0_2 | 3 => spec0_3 | ⟨_ + 4, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | 3 => nbuf0_3 | ⟨_ + 4, h⟩ => absurd h (Nat.not_lt.2 (Nat.le_add_left _ _))
abbrev ix0 (pf : pre0.Contents (Elt F)) : (w : Fin 4) → grid0.Coords → Fin (spec0 w).shape.rank → Nat := fun | 0 => cc0_transform_0 | 1 => cc0_transform_1 | 2 => cc0_transform_2 | 3 => cc0_transform_3 | ⟨_ + 4, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 | 1 => hreads0_1 | 2 => hreads0_2 | 3 => hreads0_3 | ⟨_ + 4, h⟩ => absurd h (Nat.not_lt.2 (Nat.le_add_left _ _))
def ok0 (_ : pre0.Contents (Elt F)) : Prop :=
  True
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun _ _ => fun | 0 => hinb0_0 | 1 => hinb0_1 | 2 => hinb0_2 | 3 => hinb0_3 | ⟨_ + 4, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun _ _ => fun | 0 => hwx0_0 | 1 => hwx0_1 | 2 => hwx0_2 | 3 => hwx0_3 | ⟨_ + 4, h⟩ => absurd h (Nat.not_lt.2 (Nat.le_add_left _ _))

class Facts : Prop extends Facts₀ where
  harr0 : ∀ w, (spec0 w).arr.IsWhole

variable [Facts]
-- ==== ReferenceIdeal.lean ====
abbrev S64x2048x60 : Shape := ⟨3, ![64, 2048, 60]⟩
abbrev S64x16x30x30 : Shape := ⟨4, ![64, 16, 30, 30]⟩
abbrev S64x16x2 : Shape := ⟨3, ![64, 16, 2]⟩
abbrev S30 : Shape := ⟨1, ![30]⟩
abbrev S64 : Shape := ⟨1, ![64]⟩
abbrev S64x1x1 : Shape := ⟨3, ![64, 1, 1]⟩
abbrev S64x16x1 : Shape := ⟨3, ![64, 16, 1]⟩
abbrev S64x16 : Shape := ⟨2, ![64, 16]⟩
abbrev S1x1x30 : Shape := ⟨3, ![1, 1, 30]⟩
abbrev S64x16x30 : Shape := ⟨3, ![64, 16, 30]⟩
abbrev S_ : Shape := ⟨0, ![]⟩
abbrev S64x16x30x1 : Shape := ⟨4, ![64, 16, 30, 1]⟩
abbrev S64x16x30x2 : Shape := ⟨4, ![64, 16, 30, 2]⟩
abbrev S64x16x30x60 : Shape := ⟨4, ![64, 16, 30, 60]⟩
abbrev S64x16x1x30x60 : Shape := ⟨5, ![64, 16, 1, 30, 60]⟩
abbrev S64x16x30x30x60 : Shape := ⟨5, ![64, 16, 30, 30, 60]⟩
abbrev S64x16x30x1x60 : Shape := ⟨5, ![64, 16, 30, 1, 60]⟩
abbrev S64x16x30x30x1 : Shape := ⟨5, ![64, 16, 30, 30, 1]⟩
abbrev S64x16x30x30x121 : Shape := ⟨5, ![64, 16, 30, 30, 121]⟩

abbrev nBuf : Space → Nat
  | .hbm => 65
  | .vmem => 0
  | .smem => 0
  | _ => 0

abbrev bufTy : (tb : Table) → Fin (tcTables nBuf tb) → BufTy
  | .hbm, ⟨0, _⟩ => ⟨S64x2048x60, .f32⟩
  | .hbm, ⟨1, _⟩ => ⟨S64x2048x60, .f32⟩
  | .hbm, ⟨2, _⟩ => ⟨S64x16x30x30, .f32⟩
  | .hbm, ⟨3, _⟩ => ⟨S64x16x2, .i32⟩
  | .hbm, ⟨4, _⟩ => ⟨S30, .i32⟩
  | .hbm, ⟨5, _⟩ => ⟨S64, .i32⟩
  | .hbm, ⟨6, _⟩ => ⟨S64x1x1, .i32⟩
  | .hbm, ⟨7, _⟩ => ⟨S64x16x1, .i32⟩
  | .hbm, ⟨8, _⟩ => ⟨S64x16, .i32⟩
  | .hbm, ⟨9, _⟩ => ⟨S64x16x1, .i32⟩
  | .hbm, ⟨10, _⟩ => ⟨S1x1x30, .i32⟩
  | .hbm, ⟨11, _⟩ => ⟨S64x16x30, .i32⟩
  | .hbm, ⟨12, _⟩ => ⟨S64x16x30, .i32⟩
  | .hbm, ⟨13, _⟩ => ⟨S64x16x30, .i32⟩
  | .hbm, ⟨14, _⟩ => ⟨S64x16x1, .i32⟩
  | .hbm, ⟨15, _⟩ => ⟨S64x16, .i32⟩
  | .hbm, ⟨16, _⟩ => ⟨S64x16x1, .i32⟩
  | .hbm, ⟨17, _⟩ => ⟨S1x1x30, .i32⟩
  | .hbm, ⟨18, _⟩ => ⟨S64x16x30, .i32⟩
  | .hbm, ⟨19, _⟩ => ⟨S64x16x30, .i32⟩
  | .hbm, ⟨20, _⟩ => ⟨S64x16x30, .i32⟩
  | .hbm, ⟨21, _⟩ => ⟨S_, .i32⟩
  | .hbm, ⟨22, _⟩ => ⟨S64x1x1, .i32⟩
  | .hbm, ⟨23, _⟩ => ⟨S64x1x1, .i1⟩
  | .hbm, ⟨24, _⟩ => ⟨S_, .i32⟩
  | .hbm, ⟨25, _⟩ => ⟨S64x1x1, .i32⟩
  | .hbm, ⟨26, _⟩ => ⟨S64x1x1, .i32⟩
  | .hbm, ⟨27, _⟩ => ⟨S64x1x1, .i32⟩
  | .hbm, ⟨28, _⟩ => ⟨S_, .i32⟩
  | .hbm, ⟨29, _⟩ => ⟨S64x16x30, .i32⟩
  | .hbm, ⟨30, _⟩ => ⟨S64x16x30, .i1⟩
  | .hbm, ⟨31, _⟩ => ⟨S_, .i32⟩
  | .hbm, ⟨32, _⟩ => ⟨S64x16x30, .i32⟩
  | .hbm, ⟨33, _⟩ => ⟨S64x16x30, .i32⟩
  | .hbm, ⟨34, _⟩ => ⟨S64x16x30, .i32⟩
  | .hbm, ⟨35, _⟩ => ⟨S64x16x30, .i32⟩
  | .hbm, ⟨36, _⟩ => ⟨S64x16x30x1, .i32⟩
  | .hbm, ⟨37, _⟩ => ⟨S64x16x30x1, .i32⟩
  | .hbm, ⟨38, _⟩ => ⟨S64x16x30x2, .i32⟩
  | .hbm, ⟨39, _⟩ => ⟨S64x16x30x60, .f32⟩
  | .hbm, ⟨40, _⟩ => ⟨S_, .i32⟩
  | .hbm, ⟨41, _⟩ => ⟨S64x1x1, .i32⟩
  | .hbm, ⟨42, _⟩ => ⟨S64x1x1, .i1⟩
  | .hbm, ⟨43, _⟩ => ⟨S_, .i32⟩
  | .hbm, ⟨44, _⟩ => ⟨S64x1x1, .i32⟩
  | .hbm, ⟨45, _⟩ => ⟨S64x1x1, .i32⟩
  | .hbm, ⟨46, _⟩ => ⟨S64x1x1, .i32⟩
  | .hbm, ⟨47, _⟩ => ⟨S_, .i32⟩
  | .hbm, ⟨48, _⟩ => ⟨S64x16x30, .i32⟩
  | .hbm, ⟨49, _⟩ => ⟨S64x16x30, .i1⟩
  | .hbm, ⟨50, _⟩ => ⟨S_, .i32⟩
  | .hbm, ⟨51, _⟩ => ⟨S64x16x30, .i32⟩
  | .hbm, ⟨52, _⟩ => ⟨S64x16x30, .i32⟩
  | .hbm, ⟨53, _⟩ => ⟨S64x16x30, .i32⟩
  | .hbm, ⟨54, _⟩ => ⟨S64x16x30, .i32⟩
  | .hbm, ⟨55, _⟩ => ⟨S64x16x30x1, .i32⟩
  | .hbm, ⟨56, _⟩ => ⟨S64x16x30x1, .i32⟩
  | .hbm, ⟨57, _⟩ => ⟨S64x16x30x2, .i32⟩
  | .hbm, ⟨58, _⟩ => ⟨S64x16x30x60, .f32⟩
  | .hbm, ⟨59, _⟩ => ⟨S64x16x1x30x60, .f32⟩
  | .hbm, ⟨60, _⟩ => ⟨S64x16x30x30x60, .f32⟩
  | .hbm, ⟨61, _⟩ => ⟨S64x16x30x1x60, .f32⟩
  | .hbm, ⟨62, _⟩ => ⟨S64x16x30x30x60, .f32⟩
  | .hbm, ⟨63, _⟩ => ⟨S64x16x30x30x1, .f32⟩
  | .hbm, ⟨64, _⟩ => ⟨S64x16x30x30x121, .f32⟩
  | _, _ => ⟨S64x2048x60, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_c : Ref sig .tc := ⟨.hbm, 21, rfl⟩
abbrev main_v17 : Ref sig .tc := ⟨.hbm, 22, rfl⟩
abbrev main_v18 : Ref sig .tc := ⟨.hbm, 23, rfl⟩
abbrev main_c_0 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_c_1 : Ref sig .tc := ⟨.hbm, 28, rfl⟩
abbrev main_v22 : Ref sig .tc := ⟨.hbm, 29, rfl⟩
abbrev main_v23 : Ref sig .tc := ⟨.hbm, 30, rfl⟩
abbrev main_c_2 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_c_3 : Ref sig .tc := ⟨.hbm, 40, rfl⟩
abbrev main_v32 : Ref sig .tc := ⟨.hbm, 41, rfl⟩
abbrev main_v33 : Ref sig .tc := ⟨.hbm, 42, rfl⟩
abbrev main_c_4 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_c_5 : Ref sig .tc := ⟨.hbm, 47, rfl⟩
abbrev main_v37 : Ref sig .tc := ⟨.hbm, 48, rfl⟩
abbrev main_v38 : Ref sig .tc := ⟨.hbm, 49, rfl⟩
abbrev main_c_6 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩

abbrev nD : Nat := 1
abbrev τ : Topo := Topo.v7x

variable {F : FTy → Type} [FloatOps F]

class Facts₀ : Prop where
  bcast_S64_S64x1x1_0 : S64.BroadcastsInDim S64x1x1 (![0] : Fin 1 → Fin S64x1x1.rank)
  slices_S64x16x2_S64x16x1_0_0_0 : S64x16x2.Slices ![0, 0, 0] S64x16x1
  shapeCasts_S64x16x1_S64x16 : S64x16x1.ShapeCasts S64x16
  bcast_S64x16_S64x16x1_0_1 : S64x16.BroadcastsInDim S64x16x1 (![0, 1] : Fin 2 → Fin S64x16x1.rank)
  bcast_S30_S1x1x30_2 : S30.BroadcastsInDim S1x1x30 (![2] : Fin 1 → Fin S1x1x30.rank)
  bcast_S64x16x1_S64x16x30_0_1_2 : S64x16x1.BroadcastsInDim S64x16x30 (![0, 1, 2] : Fin 3 → Fin S64x16x30.rank)
  bcast_S1x1x30_S64x16x30_0_1_2 : S1x1x30.BroadcastsInDim S64x16x30 (![0, 1, 2] : Fin 3 → Fin S64x16x30.rank)
  slices_S64x16x2_S64x16x1_0_0_1 : S64x16x2.Slices ![0, 0, 1] S64x16x1
  bcast_S_S64x1x1 : S_.BroadcastsInDim S64x1x1 (![] : Fin 0 → Fin S64x1x1.rank)
  bcast_S_S64x16x30 : S_.BroadcastsInDim S64x16x30 (![] : Fin 0 → Fin S64x16x30.rank)
  bcast_S64x1x1_S64x16x30_0_1_2 : S64x1x1.BroadcastsInDim S64x16x30 (![0, 1, 2] : Fin 3 → Fin S64x16x30.rank)
  bcast_S64x16x30_S64x16x30x1_0_1_2 : S64x16x30.BroadcastsInDim S64x16x30x1 (![0, 1, 2] : Fin 3 → Fin S64x16x30x1.rank)
  concatenates_S64x16x30x1_S64x16x30x1_S64x16x30x2_d3 : Shape.Concatenates [S64x16x30x1, S64x16x30x1] S64x16x30x2 3
  bcast_S64x16x30x60_S64x16x1x30x60_0_1_3_4 : S64x16x30x60.BroadcastsInDim S64x16x1x30x60 (![0, 1, 3, 4] : Fin 4 → Fin S64x16x1x30x60.rank)
  bcast_S64x16x1x30x60_S64x16x30x30x60_0_1_2_3_4 : S64x16x1x30x60.BroadcastsInDim S64x16x30x30x60 (![0, 1, 2, 3, 4] : Fin 5 → Fin S64x16x30x30x60.rank)
  bcast_S64x16x30x60_S64x16x30x1x60_0_1_2_4 : S64x16x30x60.BroadcastsInDim S64x16x30x1x60 (![0, 1, 2, 4] : Fin 4 → Fin S64x16x30x1x60.rank)
  bcast_S64x16x30x1x60_S64x16x30x30x60_0_1_2_3_4 : S64x16x30x1x60.BroadcastsInDim S64x16x30x30x60 (![0, 1, 2, 3, 4] : Fin 5 → Fin S64x16x30x30x60.rank)
  bcast_S64x16x30x30_S64x16x30x30x1_0_1_2_3 : S64x16x30x30.BroadcastsInDim S64x16x30x30x1 (![0, 1, 2, 3] : Fin 4 → Fin S64x16x30x30x1.rank)
  concatenates_S64x16x30x30x60_S64x16x30x30x60_S64x16x30x30x1_S64x16x30x30x121_d4 : Shape.Concatenates [S64x16x30x30x60, S64x16x30x30x60, S64x16x30x30x1] S64x16x30x30x121 4
  gather_S64x2048x60_S64x16x30x2_S64x16x30x60_3_01_n_n_01_3_1160_wf : GatherDims.WF S64x2048x60 S64x16x30x2 S64x16x30x60 [3] [0, 1] [] [0, 1] [] 3 ![1, 1, 60]

variable [Facts₀]

def gather_S64x2048x60_S64x16x30x2_S64x16x30x60_3_01_n_n_01_3_1160 : GatherDims S64x2048x60 S64x16x30x2 S64x16x30x60 where
  offsetDims := [3]
  collapsedSliceDims := [0, 1]
  operandBatchingDims := []
  startIndicesBatchingDims := []
  startIndexMap := [0, 1]
  indexVectorDim := 3
  sliceSizes := ![1, 1, 60]
  wf := gather_S64x2048x60_S64x16x30x2_S64x16x30x60_3_01_n_n_01_3_1160_wf

class Facts : Prop extends Facts₀ where

variable [Facts]
-- ==== Proof.PatchRange.lean ====
/-
  What the precondition says of the patch table.

  The precondition is the conjunction of "every float input is finite" with
  `all ((patches ≥ 0) ∧ (patches ≤ 2018))`, both comparisons signed. Only the second conjunct is read here: every
  word of the table, read as a natural number, is at most `2018 = 2048 − 30`, so a window of `30` rows that
  starts at it lies inside the `2048` rows of a sequence.
-/
import proofs.«414804_j38860864094557_1_alg».proof.Pre_finite_inputs
import Idealize.ShloMosaic.Lib.ReduceAll
import Idealize.ShloMosaic.Lib.ValueIdx

noncomputable section

namespace Cert.PatchRange

open Idealize.ShloMosaic Cert.Pre_finite_inputs

/-- A word that is signed-nonnegative and signed-at-most `2018` is at most `2018` as a natural number. -/
theorem word_le (w : BitVec 32) (h0 : IntOp.cmpi .sge w 0#32 = 1#1) (h1 : IntOp.cmpi .sle w 2018#32 = 1#1) :
    w.toNat ≤ 2018 := by
  unfold IntOp.cmpi at h0 h1
  have b0 : (0#32 : BitVec 32).sle w = true := by
    revert h0; cases (0#32 : BitVec 32).sle w <;> simp
  have b1 : w.sle 2018#32 = true := by
    revert h1; cases w.sle 2018#32 <;> simp
  simp only [BitVec.sle, decide_eq_true_eq] at b0 b1
  have h32 := w.isLt
  have e0 : (0#32 : BitVec 32).toInt = 0 := by decide
  have e1 : (2018#32 : BitVec 32).toInt = 2018 := by decide
  rw [e0, BitVec.toInt_eq_toNat_cond] at b0
  rw [e1, BitVec.toInt_eq_toNat_cond] at b1
  split at b0 <;> omega

instance : Subsingleton S_.Idx := ⟨fun a b => funext fun d => d.elim0⟩

variable {F : FTy → Type} [FloatOps F] [Facts]

/-- Under the precondition every word of the patch table is at most `2018`. -/
theorem patches_le (a0 a1 : FVec F S64x2048x60 .f32) (a2 : FVec F S64x16x30x30 .f32) (a3 : IVec S64x16x2 32)
    (h : fn (F := F) a0 a1 a2 a3 = fun _ => 1#1) (i : S64x16x2.Idx) : (a3 i).toNat ≤ 2018 := by
  have e := congrFun h ValueIdx.ix0
  unfold fn at e
  dsimp only at e
  unfold fn_part1 at e
  dsimp only at e
  have e2 := (IntOp.andi_eq_one.1 e).2
  have e3 := Host.reduce_andi_all _ _ _ _ _ e2 i
  have e4 := IntOp.andi_eq_one.1 e3
  exact word_le _ e4.1 e4.2

end Cert.PatchRange

end
-- ==== Proof.TableWordsBits.lean ====
/-
  The patch table as the kernel body reads it, and the side conditions the body assumes of its words.

  The body reads, for each patch `p < 16`, the two words `patches (b, p, 0)` and `patches (b, p, 1)` of the table
  (`b` the grid coordinate) and assumes of each that a window of `30` rows starting at it lies inside the
  `2048` rows of a sequence block: `w + 30 ≤ 2048`. Every word of the table being at most `2018`, all `32`
  assumptions hold at every grid point — whichever word of the table each one reads.
-/
import proofs.«414804_j38860864094557_1_alg».proof.Proof.Gen.Kernel.Frame

set_option maxRecDepth 16384

noncomputable section

namespace Cert.Kernel.TableWords

open Cert.Kernel Cert.Kernel.Gen
open Idealize.ShloMosaic Idealize.ShloMosaic.TcCoe Idealize.SL.Sem

variable {F : FTy → Type} [FloatOps F]

/-- A window of `30` rows and all `60` columns, starting at row `w ≤ 2018`, lies inside a `[1, 2048, 60]` block. -/
theorem window_inside (w : BitVec 32) (hw : w.toNat ≤ 2018) :
    ∀ a, (![0, (Scalar.indexCast w).toNat, 0] : Fin 3 → Nat) a + S1x30x60.size a ≤ S1x2048x60.size a := by
  intro a
  have e : (Scalar.indexCast w).toNat = w.toNat := rfl
  match a with
  | ⟨0, _⟩ => show 0 + 1 ≤ 1; omega
  | ⟨1, _⟩ => show (Scalar.indexCast w).toNat + 30 ≤ 2048; rw [e]; omega
  | ⟨2, _⟩ => show 0 + 60 ≤ 60; omega

variable (m : (ℓ : Loc nD τ sig) → Buf (Elt F) ℓ)

/-- The pipeline's side condition of the table is empty: no index map reads the table. -/
theorem ok : Ok m := trivial

/-- Whatever box of the table a load names, the word it reads is a word of the table. -/
theorem word_le (hr : ∀ i : S64x16x2.Idx, (m (((0 : Dev nD) : Thread nD τ).loc main_arg3) i).toNat ≤ 2018)
    (R : LoadRect S64x16x2) (j : R.shape.Idx) :
    (tbM0_0.view.readAt (Elt F) R (tbl m 0) j).toNat ≤ 2018 :=
  hr (R.idx j)

/-- All the side conditions the body assumes, at every grid point, from the bound on the table's words. -/
theorem hyps (hr : ∀ i : S64x16x2.Idx, (m (((0 : Dev nD) : Thread nD τ).loc main_arg3) i).toNat ≤ 2018) :
    Hyps m (ok m) :=
  Hyps.of (m := m) (hO := ok m)
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))

end Cert.Kernel.TableWords

end
-- ==== Proof.TableWordsIdeal.lean ====
/-
  The patch table as the kernel body reads it, and the side conditions the body assumes of its words.

  The body reads, for each patch `p < 16`, the two words `patches (b, p, 0)` and `patches (b, p, 1)` of the table
  (`b` the grid coordinate) and assumes of each that a window of `30` rows starting at it lies inside the
  `2048` rows of a sequence block: `w + 30 ≤ 2048`. Every word of the table being at most `2018`, all `32`
  assumptions hold at every grid point — whichever word of the table each one reads.
-/
import proofs.«414804_j38860864094557_1_alg».proof.Proof.Gen.KernelIdeal.Frame

set_option maxRecDepth 16384

noncomputable section

namespace Cert.KernelIdeal.TableWords

open Cert.KernelIdeal Cert.KernelIdeal.Gen
open Idealize.ShloMosaic Idealize.ShloMosaic.TcCoe Idealize.SL.Sem

variable {F : FTy → Type} [FloatOps F]

/-- A window of `30` rows and all `60` columns, starting at row `w ≤ 2018`, lies inside a `[1, 2048, 60]` block. -/
theorem window_inside (w : BitVec 32) (hw : w.toNat ≤ 2018) :
    ∀ a, (![0, (Scalar.indexCast w).toNat, 0] : Fin 3 → Nat) a + S1x30x60.size a ≤ S1x2048x60.size a := by
  intro a
  have e : (Scalar.indexCast w).toNat = w.toNat := rfl
  match a with
  | ⟨0, _⟩ => show 0 + 1 ≤ 1; omega
  | ⟨1, _⟩ => show (Scalar.indexCast w).toNat + 30 ≤ 2048; rw [e]; omega
  | ⟨2, _⟩ => show 0 + 60 ≤ 60; omega

variable (m : (ℓ : Loc nD τ sig) → Buf (Elt F) ℓ)

/-- The pipeline's side condition of the table is empty: no index map reads the table. -/
theorem ok : Ok m := trivial

/-- Whatever box of the table a load names, the word it reads is a word of the table. -/
theorem word_le (hr : ∀ i : S64x16x2.Idx, (m (((0 : Dev nD) : Thread nD τ).loc main_arg3) i).toNat ≤ 2018)
    (R : LoadRect S64x16x2) (j : R.shape.Idx) :
    (tbM0_0.view.readAt (Elt F) R (tbl m 0) j).toNat ≤ 2018 :=
  hr (R.idx j)

/-- All the side conditions the body assumes, at every grid point, from the bound on the table's words. -/
theorem hyps (hr : ∀ i : S64x16x2.Idx, (m (((0 : Dev nD) : Thread nD τ).loc main_arg3) i).toNat ≤ 2018) :
    Hyps m (ok m) :=
  Hyps.of (m := m) (hO := ok m)
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))
    (fun c t => window_inside _ (word_le m hr _ _))

end Cert.KernelIdeal.TableWords

end
-- ==== Proof.PatchPayloads.lean ====
/-
  The three values the kernel body stores for one patch, read at an index.

  For one patch the body loads a window `rows : [1, 30, 60]` of the first sequence block, a window
  `cols : [1, 30, 60]` of the second, and the patch's `[1, 1, 30, 30]` slab of `geo`, and stores
  * `rows` broadcast over a new axis in front of its rows: at `(a, c, k)` it is `rows (c, k)`;
  * `cols` broadcast over a new axis behind its rows:      at `(a, c, k)` it is `cols (a, k)`;
  * the slab with a unit axis added at the end:           at `(a, c, 0)` it is `geo (a, c)`.
  All three are re-layings of the loaded values: shape casts that add or drop unit axes, and one broadcast.
  The body repeats this text once per patch; the sixteen copies of each value are one function.
-/
import proofs.«414804_j38860864094557_1_alg».proof.Proof.Gen.KernelIdeal.Skeleton
import Idealize.ShloMosaic.Lib.Pipeline.Value
import Idealize.ShloMosaic.Lib.ValueIdx

noncomputable section

namespace Cert.KernelIdeal.Payloads

open Cert.KernelIdeal Cert.KernelIdeal.Gen
open Idealize.ShloMosaic Idealize.ShloMosaic.ValueIdx

variable {F : FTy → Type} [FloatOps F]

/-- The stored row window: entry `(a, c, k)` is row `c`, column `k` of the loaded window, for every `a`. -/
theorem pay_rows (v : Vec F S1x30x60 .f32) (a c : Fin 30) (k : Fin 60) :
    k0_pay1 v (ix5 (0 : Fin 1) (0 : Fin 1) a c k) = v (ix3 (0 : Fin 1) c k) := by
  unfold k0_pay1
  refine (shapeCast_apply _ _ (ix5 (0 : Fin 1) (0 : Fin 1) a c k) (ix3 a c k) ?_).trans ?_
  · rw [Shape.rowMajor_val_three, Shape.rowMajor_val_five]
    show (a.val * 30 + c.val) * 60 + k.val = ((((0 * 1 + 0) * 30 + a.val) * 30 + c.val) * 60 + k.val)
    omega
  refine (broadcastTo_apply _ _ (ix3 a c k) (ix3 (0 : Fin 1) c k) ?_).trans ?_
  · intro ax
    match ax with
    | ⟨0, _⟩ => rfl
    | ⟨1, _⟩ => rfl
    | ⟨2, _⟩ => rfl
  rw [shapeCast_self]
  refine (shapeCast_apply _ _ (ix3 (0 : Fin 1) c k) (ix2 c k) ?_).trans ?_
  · rw [Shape.rowMajor_val_three, Shape.rowMajor_val_two]
    show c.val * 60 + k.val = ((0 * 30 + c.val) * 60 + k.val)
    omega
  refine (shapeCast_apply _ _ (ix2 c k) (ix3 (0 : Fin 1) c k) ?_)
  rw [Shape.rowMajor_val_three, Shape.rowMajor_val_two]
  show ((0 * 30 + c.val) * 60 + k.val) = c.val * 60 + k.val
  omega

/-- The stored column window: entry `(a, c, k)` is row `a`, column `k` of the loaded window, for every `c`. -/
theorem pay_cols (v : Vec F S1x30x60 .f32) (a c : Fin 30) (k : Fin 60) :
    k0_pay2 v (ix5 (0 : Fin 1) (0 : Fin 1) a c k) = v (ix3 (0 : Fin 1) a k) := by
  unfold k0_pay2
  refine (shapeCast_apply _ _ (ix5 (0 : Fin 1) (0 : Fin 1) a c k) (ix3 a c k) ?_).trans ?_
  · rw [Shape.rowMajor_val_three, Shape.rowMajor_val_five]
    show (a.val * 30 + c.val) * 60 + k.val = ((((0 * 1 + 0) * 30 + a.val) * 30 + c.val) * 60 + k.val)
    omega
  refine (broadcastTo_apply _ _ (ix3 a c k) (ix3 a (0 : Fin 1) k) ?_).trans ?_
  · intro ax
    match ax with
    | ⟨0, _⟩ => rfl
    | ⟨1, _⟩ => rfl
    | ⟨2, _⟩ => rfl
  rw [shapeCast_self]
  refine (shapeCast_apply _ _ (ix3 a (0 : Fin 1) k) (ix2 a k) ?_).trans ?_
  · rw [Shape.rowMajor_val_three, Shape.rowMajor_val_two]
    show a.val * 60 + k.val = ((a.val * 1 + 0) * 60 + k.val)
    omega
  refine (shapeCast_apply _ _ (ix2 a k) (ix3 (0 : Fin 1) a k) ?_)
  rw [Shape.rowMajor_val_three, Shape.rowMajor_val_two]
  show ((0 * 30 + a.val) * 60 + k.val) = a.val * 60 + k.val
  omega

/-- The stored slab: entry `(a, c, 0)` is entry `(a, c)` of the loaded slab. -/
theorem pay_geo (v : Vec F S1x1x30x30 .f32) (a c : Fin 30) :
    k0_pay3 v (ix5 (0 : Fin 1) (0 : Fin 1) a c (0 : Fin 1)) = v (ix4 (0 : Fin 1) (0 : Fin 1) a c) := by
  unfold k0_pay3
  refine (shapeCast_apply _ _ (ix5 (0 : Fin 1) (0 : Fin 1) a c (0 : Fin 1)) (ix3 a c (0 : Fin 1)) ?_).trans ?_
  · rw [Shape.rowMajor_val_three, Shape.rowMajor_val_five]
    show (a.val * 30 + c.val) * 1 + 0 = ((((0 * 1 + 0) * 30 + a.val) * 30 + c.val) * 1 + 0)
    omega
  refine (shapeCast_apply _ _ (ix3 a c (0 : Fin 1)) (ix2 a c) ?_).trans ?_
  · rw [Shape.rowMajor_val_three, Shape.rowMajor_val_two]
    show a.val * 30 + c.val = ((a.val * 30 + c.val) * 1 + 0)
    omega
  refine (shapeCast_apply _ _ (ix2 a c) (ix4 (0 : Fin 1) (0 : Fin 1) a c) ?_)
  rw [Shape.rowMajor_val_four, Shape.rowMajor_val_two]
  show (((0 * 1 + 0) * 30 + a.val) * 30 + c.val) = a.val * 30 + c.val
  omega

end Cert.KernelIdeal.Payloads

end
-- ==== Proof.KernelBlock.lean ====
/-
  What one grid point leaves in its output block, as ONE function of the point's three input blocks and of the
  start rows the patch table gives.

  At a grid point the body handles the sixteen patches one after the other. For patch `p`, with start rows
  `R p` (into the first sequence block) and `C p` (into the second), it stores three pieces of the
  `[1, 16, 30, 30, 121]` output block, all inside slab `p`:
  * columns `0 … 59`:   at `(a, c, k)` the first block's row `R p + c`, column `k`;
  * columns `60 … 119`: at `(a, c, k)` the second block's row `C p + a`, column `k − 60`;
  * column `120`:       at `(a, c)` the `geo` block's entry `(p, a, c)`.
  `blockOf` is that function of the block index. Each of the `48` stored pieces is the restriction of `blockOf`
  to its rectangle (`rows_piece`, `cols_piece`, `geo_piece`, for any patch).
-/
import proofs.«414804_j38860864094557_1_alg».proof.Proof.Gen.KernelIdeal.Frame
import proofs.«414804_j38860864094557_1_alg».proof.Proof.PatchPayloads
import Idealize.ShloMosaic.Lib.Pipeline.Value
import Idealize.ShloMosaic.Lib.ValueIdx

set_option maxRecDepth 16384

noncomputable section

namespace Cert.KernelIdeal.Block

open Cert.KernelIdeal Cert.KernelIdeal.Gen Cert.KernelIdeal.Payloads
open Idealize.ShloMosaic Idealize.ShloMosaic.TcCoe Idealize.SL.Sem Idealize.ShloMosaic.ValueIdx

variable {F : FTy → Type} [FloatOps F]

/-- The output block of one grid point: see the header. A start row is kept inside the block's `2048` rows by
    `min`; where `R p + 30 ≤ 2048` it is `R p + c` itself. -/
def blockOf (X0 X1 : Vec F S1x2048x60 .f32) (X2 : Vec F S1x16x30x30 .f32) (R C : Fin 16 → Nat) :
    Vec F S1x16x30x30x121 .f32 :=
  fun y =>
    if h : (y 4).val < 60 then
      X0 (ix3 (0 : Fin 1) (⟨min (R (y 1 : Fin 16) + (y 3).val) 2047, by omega⟩ : Fin 2048) (⟨(y 4).val, h⟩ : Fin 60))
    else if h2 : (y 4).val < 120 then
      X1 (ix3 (0 : Fin 1) (⟨min (C (y 1 : Fin 16) + (y 2).val) 2047, by omega⟩ : Fin 2048) (⟨(y 4).val - 60, by omega⟩ : Fin 60))
    else
      X2 (ix4 (0 : Fin 1) (y 1 : Fin 16) (y 2 : Fin 30) (y 3 : Fin 30))

section Branches
variable (X0 X1 : Vec F S1x2048x60 .f32) (X2 : Vec F S1x16x30x30 .f32) (R C : Fin 16 → Nat)
  (p : Fin 16) (a c : Fin 30) (k : Fin 121)

theorem blockOf_rows (hk : k.val < 60) :
    blockOf X0 X1 X2 R C (ix5 (0 : Fin 1) p a c k)
      = X0 (ix3 (0 : Fin 1) (⟨min (R p + c.val) 2047, by omega⟩ : Fin 2048) (⟨k.val, hk⟩ : Fin 60)) := by
  unfold blockOf
  exact dif_pos hk

theorem blockOf_cols (hk : 60 ≤ k.val) (hk2 : k.val < 120) :
    blockOf X0 X1 X2 R C (ix5 (0 : Fin 1) p a c k)
      = X1 (ix3 (0 : Fin 1) (⟨min (C p + a.val) 2047, by omega⟩ : Fin 2048) (⟨k.val - 60, by omega⟩ : Fin 60)) := by
  unfold blockOf
  rw [dif_neg (show ¬ ((ix5 (0 : Fin 1) p a c k) 4).val < 60 from Nat.not_lt.2 hk)]
  exact dif_pos hk2

theorem blockOf_geo (hk : 120 ≤ k.val) :
    blockOf X0 X1 X2 R C (ix5 (0 : Fin 1) p a c k) = X2 (ix4 (0 : Fin 1) p a c) := by
  unfold blockOf
  rw [dif_neg (show ¬ ((ix5 (0 : Fin 1) p a c k) 4).val < 60 from by show ¬ k.val < 60; omega),
    dif_neg (show ¬ ((ix5 (0 : Fin 1) p a c k) 4).val < 120 from by show ¬ k.val < 120; omega)]

end Branches

/-! The rectangles of the stores and loads lie inside their blocks. -/

/-- Columns `o … o + n − 1` of slab `p` of the output block. -/
theorem inb_slab (p : Nat) (hp : p < 16) (o n : Nat) (ho : o + n ≤ 121) :
    ∀ a, (![0, p, 0, 0, o] : Fin 5 → Nat) a + (![1, 1, 30, 30, n] : Fin 5 → Nat) a ≤ S1x16x30x30x121.size a := by
  intro a
  match a with
  | ⟨0, _⟩ => show 0 + 1 ≤ 1; omega
  | ⟨1, _⟩ => show p + 1 ≤ 16; omega
  | ⟨2, _⟩ => show 0 + 30 ≤ 30; omega
  | ⟨3, _⟩ => show 0 + 30 ≤ 30; omega
  | ⟨4, _⟩ => show o + n ≤ 121; omega

/-- A window of `30` rows of a sequence block, from row `w`. -/
theorem inb_window (w : Nat) (hw : w + 30 ≤ 2048) :
    ∀ a, (![0, w, 0] : Fin 3 → Nat) a + (![1, 30, 60] : Fin 3 → Nat) a ≤ S1x2048x60.size a := by
  intro a
  match a with
  | ⟨0, _⟩ => show 0 + 1 ≤ 1; omega
  | ⟨1, _⟩ => show w + 30 ≤ 2048; omega
  | ⟨2, _⟩ => show 0 + 60 ≤ 60; omega

/-- Slab `p` of the `geo` block. -/
theorem inb_geo (p : Nat) (hp : p < 16) :
    ∀ a, (![0, p, 0, 0] : Fin 4 → Nat) a + S1x1x30x30.size a ≤ S1x16x30x30.size a := by
  intro a
  match a with
  | ⟨0, _⟩ => show 0 + 1 ≤ 1; omega
  | ⟨1, _⟩ => show p + 1 ≤ 16; omega
  | ⟨2, _⟩ => show 0 + 30 ≤ 30; omega
  | ⟨3, _⟩ => show 0 + 30 ≤ 30; omega

section Pieces
variable (X0 X1 : Vec F S1x2048x60 .f32) (X2 : Vec F S1x16x30x30 .f32) (R C : Fin 16 → Nat)

/-- The piece stored into columns `0 … 59` of slab `p`: the row window of the first block that starts at row `w = R p`. -/
theorem rows_piece (arg2 : Memref sig .tc .vmem S1x2048x60 .f32) (harg2 : arg2.IsWhole)
    (p : Nat) (hp : p < 16) (w : Nat) (hw : w + 30 ≤ 2048) (hR : R ⟨p, hp⟩ = w) :
    ∀ x : (Rect.unit (s := S1x16x30x30x121) ![0, p, 0, 0, 0] ![1, 1, 30, 30, 60] (inb_slab p hp 0 60 (by decide))).shape.Idx,
      k0_pay1 (View.readAt (Elt F) arg2.view (Rect.unit (s := S1x2048x60) ![0, w, 0] ![1, 30, 60] (inb_window w hw)).toLoadRect (harg2.unread X0)) x
        = blockOf X0 X1 X2 R C ((Rect.unit (s := S1x16x30x30x121) ![0, p, 0, 0, 0] ![1, 1, 30, 30, 60] (inb_slab p hp 0 60 (by decide))).emb x) := by
  intro x
  obtain ⟨x0, x1, a, c, k, rfl⟩ : ∃ (x0 x1 : Fin 1) (a c : Fin 30) (k : Fin 60), x = ix5 x0 x1 a c k :=
    ⟨x 0, x 1, x 2, x 3, x 4, eq_ix5 x⟩
  obtain rfl : x0 = 0 := Subsingleton.elim _ _
  obtain rfl : x1 = 0 := Subsingleton.elim _ _
  have hk := k.isLt
  have hc := c.isLt
  have e1 : (Rect.unit (s := S1x16x30x30x121) ![0, p, 0, 0, 0] ![1, 1, 30, 30, 60] (inb_slab p hp 0 60 (by decide))).emb (ix5 (0 : Fin 1) (0 : Fin 1) a c k)
      = ix5 (0 : Fin 1) (⟨p, hp⟩ : Fin 16) a c (⟨k.val, by omega⟩ : Fin 121) := by
    funext ax
    apply Fin.ext
    match ax with
    | ⟨0, _⟩ => show 0 + 1 * 0 = 0; omega
    | ⟨1, _⟩ => show p + 1 * 0 = p; omega
    | ⟨2, _⟩ => show 0 + 1 * a.val = a.val; omega
    | ⟨3, _⟩ => show 0 + 1 * c.val = c.val; omega
    | ⟨4, _⟩ => show 0 + 1 * k.val = k.val; omega
  rw [e1, blockOf_rows X0 X1 X2 R C ⟨p, hp⟩ a c ⟨k.val, by omega⟩ hk, pay_rows, View.readAt_apply, harg2.read_unread]
  congr 1
  funext ax
  apply Fin.ext
  match ax with
  | ⟨0, _⟩ => show 0 + 1 * 0 = 0; omega
  | ⟨1, _⟩ => show w + 1 * c.val = min (R ⟨p, hp⟩ + c.val) 2047; rw [hR]; omega
  | ⟨2, _⟩ => show 0 + 1 * k.val = k.val; omega

/-- The piece stored into columns `60 … 119` of slab `p`: the row window of the second block that starts at row `w = C p`. -/
theorem cols_piece (arg3 : Memref sig .tc .vmem S1x2048x60 .f32) (harg3 : arg3.IsWhole)
    (p : Nat) (hp : p < 16) (w : Nat) (hw : w + 30 ≤ 2048) (hC : C ⟨p, hp⟩ = w) :
    ∀ x : (Rect.unit (s := S1x16x30x30x121) ![0, p, 0, 0, 60] ![1, 1, 30, 30, 60] (inb_slab p hp 60 60 (by decide))).shape.Idx,
      k0_pay2 (View.readAt (Elt F) arg3.view (Rect.unit (s := S1x2048x60) ![0, w, 0] ![1, 30, 60] (inb_window w hw)).toLoadRect (harg3.unread X1)) x
        = blockOf X0 X1 X2 R C ((Rect.unit (s := S1x16x30x30x121) ![0, p, 0, 0, 60] ![1, 1, 30, 30, 60] (inb_slab p hp 60 60 (by decide))).emb x) := by
  intro x
  obtain ⟨x0, x1, a, c, k, rfl⟩ : ∃ (x0 x1 : Fin 1) (a c : Fin 30) (k : Fin 60), x = ix5 x0 x1 a c k :=
    ⟨x 0, x 1, x 2, x 3, x 4, eq_ix5 x⟩
  obtain rfl : x0 = 0 := Subsingleton.elim _ _
  obtain rfl : x1 = 0 := Subsingleton.elim _ _
  have hk := k.isLt
  have ha := a.isLt
  have e1 : (Rect.unit (s := S1x16x30x30x121) ![0, p, 0, 0, 60] ![1, 1, 30, 30, 60] (inb_slab p hp 60 60 (by decide))).emb (ix5 (0 : Fin 1) (0 : Fin 1) a c k)
      = ix5 (0 : Fin 1) (⟨p, hp⟩ : Fin 16) a c (⟨60 + k.val, by omega⟩ : Fin 121) := by
    funext ax
    apply Fin.ext
    match ax with
    | ⟨0, _⟩ => show 0 + 1 * 0 = 0; omega
    | ⟨1, _⟩ => show p + 1 * 0 = p; omega
    | ⟨2, _⟩ => show 0 + 1 * a.val = a.val; omega
    | ⟨3, _⟩ => show 0 + 1 * c.val = c.val; omega
    | ⟨4, _⟩ => show 60 + 1 * k.val = 60 + k.val; omega
  rw [e1, blockOf_cols X0 X1 X2 R C ⟨p, hp⟩ a c ⟨60 + k.val, by omega⟩ (by show 60 ≤ 60 + k.val; omega) (by show 60 + k.val < 120; omega),
    pay_cols, View.readAt_apply, harg3.read_unread]
  congr 1
  funext ax
  apply Fin.ext
  match ax with
  | ⟨0, _⟩ => show 0 + 1 * 0 = 0; omega
  | ⟨1, _⟩ => show w + 1 * a.val = min (C ⟨p, hp⟩ + a.val) 2047; rw [hC]; omega
  | ⟨2, _⟩ => show 0 + 1 * k.val = 60 + k.val - 60; omega

/-- The piece stored into column `120` of slab `p`: slab `p` of the `geo` block. -/
theorem geo_piece (arg4 : Memref sig .tc .vmem S1x16x30x30 .f32) (harg4 : arg4.IsWhole)
    (p : Nat) (hp : p < 16) :
    ∀ x : (Rect.unit (s := S1x16x30x30x121) ![0, p, 0, 0, 120] ![1, 1, 30, 30, 1] (inb_slab p hp 120 1 (by decide))).shape.Idx,
      k0_pay3 (View.readAt (Elt F) arg4.view (Rect.unit (s := S1x16x30x30) ![0, p, 0, 0] S1x1x30x30.size (inb_geo p hp)).toLoadRect (harg4.unread X2)) x
        = blockOf X0 X1 X2 R C ((Rect.unit (s := S1x16x30x30x121) ![0, p, 0, 0, 120] ![1, 1, 30, 30, 1] (inb_slab p hp 120 1 (by decide))).emb x) := by
  intro x
  obtain ⟨x0, x1, a, c, k, rfl⟩ : ∃ (x0 x1 : Fin 1) (a c : Fin 30) (k : Fin 1), x = ix5 x0 x1 a c k :=
    ⟨x 0, x 1, x 2, x 3, x 4, eq_ix5 x⟩
  obtain rfl : x0 = 0 := Subsingleton.elim _ _
  obtain rfl : x1 = 0 := Subsingleton.elim _ _
  obtain rfl : k = 0 := Subsingleton.elim _ _
  have e1 : (Rect.unit (s := S1x16x30x30x121) ![0, p, 0, 0, 120] ![1, 1, 30, 30, 1] (inb_slab p hp 120 1 (by decide))).emb (ix5 (0 : Fin 1) (0 : Fin 1) a c (0 : Fin 1))
      = ix5 (0 : Fin 1) (⟨p, hp⟩ : Fin 16) a c (⟨120, by omega⟩ : Fin 121) := by
    funext ax
    apply Fin.ext
    match ax with
    | ⟨0, _⟩ => show 0 + 1 * 0 = 0; omega
    | ⟨1, _⟩ => show p + 1 * 0 = p; omega
    | ⟨2, _⟩ => show 0 + 1 * a.val = a.val; omega
    | ⟨3, _⟩ => show 0 + 1 * c.val = c.val; omega
    | ⟨4, _⟩ => show 120 + 1 * 0 = 120; omega
  rw [e1, blockOf_geo X0 X1 X2 R C ⟨p, hp⟩ a c ⟨120, by omega⟩ (Nat.le_refl _), pay_geo, View.readAt_apply, harg4.read_unread]
  congr 1
  funext ax
  apply Fin.ext
  match ax with
  | ⟨0, _⟩ => show 0 + 1 * 0 = 0; omega
  | ⟨1, _⟩ => show p + 1 * 0 = p; omega
  | ⟨2, _⟩ => show 0 + 1 * a.val = a.val; omega
  | ⟨3, _⟩ => show 0 + 1 * c.val = c.val; omega

end Pieces

end Cert.KernelIdeal.Block

end
-- ==== Proof.KernelPieces.lean ====
/-
  The output block a grid point leaves is `blockOf` of its input blocks and of the table's start rows.

  The body's run leaves the output block as a list of `48` stored pieces (three for each of the sixteen patches, the
  last stored first). The start row of patch `p`'s window of the first (second) sequence block is the word
  `patches (b, p, 0)` (`patches (b, p, 1)`) of the table, `b` the grid coordinate: `word_at` says that the word the
  body loads at offsets `(b, p, k)` is that entry of the table. Every piece is then `blockOf` restricted to its
  rectangle, the pieces cover the block, and so the block is `blockOf` at every index.
-/
import proofs.«414804_j38860864094557_1_alg».proof.Proof.KernelBlock

set_option maxRecDepth 16384

noncomputable section

namespace Cert.KernelIdeal.Block

open Cert.KernelIdeal Cert.KernelIdeal.Gen Cert.KernelIdeal.Payloads
open Idealize.ShloMosaic Idealize.ShloMosaic.TcCoe Idealize.ShloMosaic.Tactic Idealize.SL.Sem Idealize.ShloMosaic.ValueIdx

variable {F : FTy → Type} [FloatOps F]

/-- The grid coordinate as a row of the table. -/
abbrev batchOf (i : grid0.Coords) : Fin 64 := ⟨(i 0).val, (i 0).isLt⟩

/-- Entry `(b, p, k)` of the table as the body holds it, as a natural number. -/
def startRow (c : Dev nD) (xt0 : TbBuf0 (F := F) c tbM0_0) (i : grid0.Coords) (k : Fin 2) (p : Fin 16) : Nat :=
  (tbM0_0.view.read (Elt F) xt0 (ix3 (batchOf i) p k)).toNat

/-- The box of one element at offsets `(b, p, k)` lies inside the table. -/
theorem inb_word (i : grid0.Coords) (p : Nat) (hp : p < 16) (k : Nat) (hk : k < 2) :
    ∀ a, (![BitVec.toNat (Scalar.indexCast (BitVec.ofNat 32 (i 0).val)), p, k] : Fin 3 → Nat) a + S1x1x1.size a ≤ S64x16x2.size a := by
  intro a
  have hb : (i 0).val < 64 := (i 0).isLt
  have e : BitVec.toNat (Scalar.indexCast (BitVec.ofNat 32 (i 0).val)) = (i 0).val := by
    show (BitVec.ofNat 32 (i 0).val).toNat = (i 0).val
    rw [BitVec.toNat_ofNat]; omega
  match a with
  | ⟨0, _⟩ => show BitVec.toNat (Scalar.indexCast (BitVec.ofNat 32 (i 0).val)) + 1 ≤ 64; omega
  | ⟨1, _⟩ => show p + 1 ≤ 16; omega
  | ⟨2, _⟩ => show k + 1 ≤ 2; omega

/-- The word the body loads from the table at offsets `(b, p, k)` — through a box of one element — is the table's
    entry `(b, p, k)`. -/
theorem word_at (c : Dev nD) (xt0 : TbBuf0 (F := F) c tbM0_0) (i : grid0.Coords) (p : Nat) (hp : p < 16) (k : Nat) (hk : k < 2)
    (j : (Rect.unit (s := S64x16x2) ![BitVec.toNat (Scalar.indexCast (BitVec.ofNat 32 (i 0).val)), p, k] S1x1x1.size (inb_word i p hp k hk)).toLoadRect.shape.Idx) :
    startRow c xt0 i ⟨k, hk⟩ ⟨p, hp⟩
      = BitVec.toNat (Scalar.indexCast (View.readAt (Elt F) tbM0_0.view
          (Rect.unit (s := S64x16x2) ![BitVec.toNat (Scalar.indexCast (BitVec.ofNat 32 (i 0).val)), p, k] S1x1x1.size (inb_word i p hp k hk)).toLoadRect xt0 j)) := by
  unfold startRow
  rw [View.readAt_apply]
  show (tbM0_0.view.read (Elt F) xt0 _).toNat = (tbM0_0.view.read (Elt F) xt0 _).toNat
  congr 2
  funext ax
  apply Fin.ext
  have hb : (i 0).val < 64 := (i 0).isLt
  have e : BitVec.toNat (Scalar.indexCast (BitVec.ofNat 32 (i 0).val)) = (i 0).val := by
    show (BitVec.ofNat 32 (i 0).val).toNat = (i 0).val
    rw [BitVec.toNat_ofNat]; omega
  match ax with
  | ⟨0, h0⟩ =>
    have hj : (j ⟨0, h0⟩).val < 1 := (j ⟨0, h0⟩).isLt
    show (i 0).val = BitVec.toNat (Scalar.indexCast (BitVec.ofNat 32 (i 0).val)) + 1 * (j ⟨0, h0⟩).val
    omega
  | ⟨1, h1⟩ =>
    have hj : (j ⟨1, h1⟩).val < 1 := (j ⟨1, h1⟩).isLt
    show p = p + 1 * (j ⟨1, h1⟩).val
    omega
  | ⟨2, h2⟩ =>
    have hj : (j ⟨2, h2⟩).val < 1 := (j ⟨2, h2⟩).isLt
    show k = k + 1 * (j ⟨2, h2⟩).val
    omega

/- The three pieces of patch `p`, at the head of the list of pieces: the `geo` column, then the second block's window
   (its assumed side condition `hc`), then the first block's (`hr`); what is left is the list's tail. -/
set_option hygiene false in
local macro "patch_pieces" p:num hr:ident hc:ident : tactic => `(tactic| (
  refine List.forall_mem_cons.2 ⟨?_, ?_⟩
  · exact geo_piece x0 x1 x2 _ _ arg4 harg4 $p (by decide)
  refine List.forall_mem_cons.2 ⟨?_, ?_⟩
  · exact cols_piece x0 x1 x2 _ _ arg3 harg3 $p (by decide) _ ($hc 1) (by exact word_at c xt0 i $p (by decide) 1 (by decide) _)
  refine List.forall_mem_cons.2 ⟨?_, ?_⟩
  · exact rows_piece x0 x1 x2 _ _ arg2 harg2 $p (by decide) _ ($hr 1) (by exact word_at c xt0 i $p (by decide) 0 (by decide) _)))

set_option maxHeartbeats 2000000 in
/-- Every piece the run stores is `blockOf` on its rectangle. -/
theorem pieces_agree (c : Dev nD) (i : grid0.Coords) (arg2 : Memref sig .tc .vmem S1x2048x60 .f32) (harg2 : arg2.IsWhole) (arg3 : Memref sig .tc .vmem S1x2048x60 .f32) (harg3 : arg3.IsWhole) (arg4 : Memref sig .tc .vmem S1x16x30x30 .f32) (harg4 : arg4.IsWhole) (arg5 : Memref sig .tc .vmem S1x16x30x30x121 .f32) (harg5 : arg5.IsWhole)
    (x0 : Vec F S1x2048x60 .f32) (x1 : Vec F S1x2048x60 .f32) (x2 : Vec F S1x16x30x30 .f32) (xt0 : TbBuf0 (F := F) c tbM0_0)
    (hw1 hw2 hw3 hw4 hw5 hw6 hw7 hw8 hw9 hw10 hw11 hw12 hw13 hw14 hw15 hw16 hw17 hw18 hw19 hw20 hw21 hw22 hw23 hw24 hw25 hw26 hw27 hw28 hw29 hw30 hw31 hw32) :
    ∀ pc ∈ (kernelRun0_A c i arg2 harg2 arg3 harg3 arg4 harg4 arg5 harg5 x0 x1 x2 xt0 hw1 hw2 hw3 hw4 hw5 hw6 hw7 hw8 hw9 hw10 hw11 hw12 hw13 hw14 hw15 hw16 hw17 hw18 hw19 hw20 hw21 hw22 hw23 hw24 hw25 hw26 hw27 hw28 hw29 hw30 hw31 hw32).1, ∀ x : pc.1.shape.Idx,
      pc.2 x = blockOf x0 x1 x2 (startRow c xt0 i 0) (startRow c xt0 i 1) (pc.1.emb x) := by
  unfold kernelRun0_A
  dsimp only
  sl_unfold_words
  patch_pieces 15 hw31 hw32
  patch_pieces 14 hw29 hw30
  patch_pieces 13 hw27 hw28
  patch_pieces 12 hw25 hw26
  patch_pieces 11 hw23 hw24
  patch_pieces 10 hw21 hw22
  patch_pieces 9 hw19 hw20
  patch_pieces 8 hw17 hw18
  patch_pieces 7 hw15 hw16
  patch_pieces 6 hw13 hw14
  patch_pieces 5 hw11 hw12
  patch_pieces 4 hw9 hw10
  patch_pieces 3 hw7 hw8
  patch_pieces 2 hw5 hw6
  patch_pieces 1 hw3 hw4
  patch_pieces 0 hw1 hw2
  exact fun q hq => absurd hq List.not_mem_nil

/-- The output block the run leaves at a grid point is `blockOf` of the point's input blocks and the table's start
    rows. -/
theorem out_block (c : Dev nD) (i : grid0.Coords) (arg2 : Memref sig .tc .vmem S1x2048x60 .f32) (harg2 : arg2.IsWhole) (arg3 : Memref sig .tc .vmem S1x2048x60 .f32) (harg3 : arg3.IsWhole) (arg4 : Memref sig .tc .vmem S1x16x30x30 .f32) (harg4 : arg4.IsWhole) (arg5 : Memref sig .tc .vmem S1x16x30x30x121 .f32) (harg5 : arg5.IsWhole)
    (x0 : Vec F S1x2048x60 .f32) (x1 : Vec F S1x2048x60 .f32) (x2 : Vec F S1x16x30x30 .f32) (xt0 : TbBuf0 (F := F) c tbM0_0)
    (hw1 hw2 hw3 hw4 hw5 hw6 hw7 hw8 hw9 hw10 hw11 hw12 hw13 hw14 hw15 hw16 hw17 hw18 hw19 hw20 hw21 hw22 hw23 hw24 hw25 hw26 hw27 hw28 hw29 hw30 hw31 hw32) :
    out0_A_3 c i arg2 harg2 arg3 harg3 arg4 harg4 arg5 harg5 x0 x1 x2 xt0 hw1 hw2 hw3 hw4 hw5 hw6 hw7 hw8 hw9 hw10 hw11 hw12 hw13 hw14 hw15 hw16 hw17 hw18 hw19 hw20 hw21 hw22 hw23 hw24 hw25 hw26 hw27 hw28 hw29 hw30 hw31 hw32 = blockOf x0 x1 x2 (startRow c xt0 i 0) (startRow c xt0 i 1) := by
  unfold out0_A_3
  rw [View.read_writes_junk_eq_canon]
  funext y
  exact View.canon_apply_of_pieces _ _ (pieces_agree c i arg2 harg2 arg3 harg3 arg4 harg4 arg5 harg5 x0 x1 x2 xt0 hw1 hw2 hw3 hw4 hw5 hw6 hw7 hw8 hw9 hw10 hw11 hw12 hw13 hw14 hw15 hw16 hw17 hw18 hw19 hw20 hw21 hw22 hw23 hw24 hw25 hw26 hw27 hw28 hw29 hw30 hw31 hw32) y (cover0_A_3 c i arg2 harg2 arg3 harg3 arg4 harg4 arg5 harg5 x0 x1 x2 xt0 hw1 hw2 hw3 hw4 hw5 hw6 hw7 hw8 hw9 hw10 hw11 hw12 hw13 hw14 hw15 hw16 hw17 hw18 hw19 hw20 hw21 hw22 hw23 hw24 hw25 hw26 hw27 hw28 hw29 hw30 hw31 hw32 y)

end Cert.KernelIdeal.Block

end
-- ==== Proof.PatchSpec.lean ====
/-
  The result of the computation as ONE function of the four argument arrays, index by index.

  `seq1`, `seq2 : [64, 2048, 60]`, `geo : [64, 16, 30, 30]`, `patches : [64, 16, 2]` (integer words). The result
  has shape `[64, 16, 30, 30, 121]`; at `(b, p, a, c, k)` it is

  * for `k < 60`:          `seq1 (b, patches (b, p, 0) + c, k)`       — row `c` of patch `p`'s window of `seq1`;
  * for `60 ≤ k < 120`:    `seq2 (b, patches (b, p, 1) + a, k − 60)`  — row `a` of patch `p`'s window of `seq2`;
  * for `k = 120`:         `geo (b, p, a, c)`.

  A window of `30` rows starting at word `w` lies inside the `2048` rows when `w ≤ 2018` as a natural number;
  `rowAt` is total (it stops at the last row), and is `w + j` on that range.
-/
import Idealize.ShloMosaic.Lib.ValueIdx

noncomputable section

namespace Cert.PatchSpec

open Idealize.ShloMosaic Idealize.ShloMosaic.ValueIdx

/-- Row `j` of the window that starts at word `w`, kept inside the `2048` rows. -/
def rowAt (w : BitVec 32) (j : Fin 30) : Fin 2048 := ⟨min (w.toNat + j.val) 2047, by omega⟩

theorem rowAt_val {w : BitVec 32} (hw : w.toNat ≤ 2018) (j : Fin 30) : (rowAt w j).val = w.toNat + j.val := by
  have := j.isLt
  show min (w.toNat + j.val) 2047 = _
  omega

/-- The result array as a function of the argument arrays. -/
def result {α : Type} (seq1 seq2 : (⟨3, ![64, 2048, 60]⟩ : Shape).Idx → α) (geo : (⟨4, ![64, 16, 30, 30]⟩ : Shape).Idx → α)
    (patches : (⟨3, ![64, 16, 2]⟩ : Shape).Idx → BitVec 32) : (⟨5, ![64, 16, 30, 30, 121]⟩ : Shape).Idx → α :=
  fun y =>
    if h : (y 4).val < 60 then
      seq1 (ix3 (y 0 : Fin 64) (rowAt (patches (ix3 (y 0 : Fin 64) (y 1 : Fin 16) (0 : Fin 2))) (y 3 : Fin 30)) (⟨(y 4).val, h⟩ : Fin 60))
    else if h2 : (y 4).val < 120 then
      seq2 (ix3 (y 0 : Fin 64) (rowAt (patches (ix3 (y 0 : Fin 64) (y 1 : Fin 16) (1 : Fin 2))) (y 2 : Fin 30)) (⟨(y 4).val - 60, by omega⟩ : Fin 60))
    else
      geo (ix4 (y 0 : Fin 64) (y 1 : Fin 16) (y 2 : Fin 30) (y 3 : Fin 30))

/-- The three branches, at explicit coordinates. -/
theorem result_rows {α : Type} (seq1 seq2 : (⟨3, ![64, 2048, 60]⟩ : Shape).Idx → α) (geo : (⟨4, ![64, 16, 30, 30]⟩ : Shape).Idx → α)
    (patches : (⟨3, ![64, 16, 2]⟩ : Shape).Idx → BitVec 32) (b : Fin 64) (p : Fin 16) (a c : Fin 30) (k : Fin 121) (hk : k.val < 60) :
    result seq1 seq2 geo patches (ix5 b p a c k) = seq1 (ix3 b (rowAt (patches (ix3 b p (0 : Fin 2))) c) (⟨k.val, hk⟩ : Fin 60)) := by
  unfold result
  exact dif_pos hk

theorem result_cols {α : Type} (seq1 seq2 : (⟨3, ![64, 2048, 60]⟩ : Shape).Idx → α) (geo : (⟨4, ![64, 16, 30, 30]⟩ : Shape).Idx → α)
    (patches : (⟨3, ![64, 16, 2]⟩ : Shape).Idx → BitVec 32) (b : Fin 64) (p : Fin 16) (a c : Fin 30) (k : Fin 121) (hk : 60 ≤ k.val)
    (hk2 : k.val < 120) :
    result seq1 seq2 geo patches (ix5 b p a c k) = seq2 (ix3 b (rowAt (patches (ix3 b p (1 : Fin 2))) a) (⟨k.val - 60, by omega⟩ : Fin 60)) := by
  unfold result
  rw [dif_neg (show ¬ ((ix5 b p a c k) 4).val < 60 from Nat.not_lt.2 hk)]
  exact dif_pos hk2

theorem result_geo {α : Type} (seq1 seq2 : (⟨3, ![64, 2048, 60]⟩ : Shape).Idx → α) (geo : (⟨4, ![64, 16, 30, 30]⟩ : Shape).Idx → α)
    (patches : (⟨3, ![64, 16, 2]⟩ : Shape).Idx → BitVec 32) (b : Fin 64) (p : Fin 16) (a c : Fin 30) (k : Fin 121) (hk : 120 ≤ k.val) :
    result seq1 seq2 geo patches (ix5 b p a c k) = geo (ix4 b p a c) := by
  unfold result
  rw [dif_neg (show ¬ ((ix5 b p a c k) 4).val < 60 from by show ¬ k.val < 60; omega),
    dif_neg (show ¬ ((ix5 b p a c k) 4).val < 120 from by show ¬ k.val < 120; omega)]

end Cert.PatchSpec

end
-- ==== Proof.BlockResult.lean ====
/-
  A grid point's output block is block `t` of the result function.

  Point `t` of the grid works on batch row `t`: its input blocks are rows `t` of the two sequences and of `geo`,
  and the start rows it uses are the words `patches (t, p, 0)`, `patches (t, p, 1)`. Where every word of the table is
  at most `2018` no window is cut short, and `blockOf` of those blocks at `(0, p, a, c, k)` is the result function
  of the whole arrays at `(t, p, a, c, k)`: the three column ranges of the two definitions are the same three cases.
-/
import proofs.«414804_j38860864094557_1_alg».proof.Proof.KernelBlock
import proofs.«414804_j38860864094557_1_alg».proof.Proof.PatchSpec

noncomputable section

namespace Cert.KernelIdeal.Block

open Cert.KernelIdeal Cert.KernelIdeal.Gen
open Idealize.ShloMosaic Idealize.ShloMosaic.ValueIdx Cert.PatchSpec

variable {F : FTy → Type} [FloatOps F]

theorem block_eq_result (X0 X1 : Vec F S1x2048x60 .f32) (X2 : Vec F S1x16x30x30 .f32) (R C : Fin 16 → Nat)
    (A0 A1 : (⟨3, ![64, 2048, 60]⟩ : Shape).Idx → Elt F .f32) (A2 : (⟨4, ![64, 16, 30, 30]⟩ : Shape).Idx → Elt F .f32)
    (P : (⟨3, ![64, 16, 2]⟩ : Shape).Idx → BitVec 32) (t : Fin 64)
    (hX0 : ∀ (r : Fin 2048) (k : Fin 60), X0 (ix3 (0 : Fin 1) r k) = A0 (ix3 t r k))
    (hX1 : ∀ (r : Fin 2048) (k : Fin 60), X1 (ix3 (0 : Fin 1) r k) = A1 (ix3 t r k))
    (hX2 : ∀ (p : Fin 16) (a c : Fin 30), X2 (ix4 (0 : Fin 1) p a c) = A2 (ix4 t p a c))
    (hR : ∀ p : Fin 16, R p = (P (ix3 t p (0 : Fin 2))).toNat)
    (hC : ∀ p : Fin 16, C p = (P (ix3 t p (1 : Fin 2))).toNat)
    (hP : ∀ i, (P i).toNat ≤ 2018)
    (p : Fin 16) (a c : Fin 30) (k : Fin 121) :
    blockOf X0 X1 X2 R C (ix5 (0 : Fin 1) p a c k) = result A0 A1 A2 P (ix5 t p a c k) := by
  by_cases h1 : k.val < 60
  · rw [blockOf_rows X0 X1 X2 R C p a c k h1, result_rows A0 A1 A2 P t p a c k h1, hX0]
    congr 1
    funext ax
    apply Fin.ext
    match ax with
    | ⟨0, _⟩ => rfl
    | ⟨1, _⟩ =>
      show min (R p + c.val) 2047 = (rowAt (P (ix3 t p (0 : Fin 2))) c).val
      rw [rowAt_val (hP _), hR]
      have := hP (ix3 t p (0 : Fin 2)); have := c.isLt; omega
    | ⟨2, _⟩ => rfl
  · by_cases h2 : k.val < 120
    · rw [blockOf_cols X0 X1 X2 R C p a c k (Nat.not_lt.1 h1) h2, result_cols A0 A1 A2 P t p a c k (Nat.not_lt.1 h1) h2, hX1]
      congr 1
      funext ax
      apply Fin.ext
      match ax with
      | ⟨0, _⟩ => rfl
      | ⟨1, _⟩ =>
        show min (C p + a.val) 2047 = (rowAt (P (ix3 t p (1 : Fin 2))) a).val
        rw [rowAt_val (hP _), hC]
        have := hP (ix3 t p (1 : Fin 2)); have := a.isLt; omega
      | ⟨2, _⟩ => rfl
    · rw [blockOf_geo X0 X1 X2 R C p a c k (Nat.not_lt.1 h2), result_geo A0 A1 A2 P t p a c k (Nat.not_lt.1 h2), hX2]

end Cert.KernelIdeal.Block

end
-- ==== Proof.KernelFinal.lean ====
/-
  The kernel's result array after the run is the result function of its four argument arrays.

  Grid point `t` stages row `t` of each of the two sequences and of `geo` (its input blocks are the arrays read at
  leading coordinate `t`), and its output block is written back as row `t` of the result. With the table's words at
  most `2018`, the block the point leaves is block `t` of the result function (`block_eq_result` over
  `out_block`); the `64` points' blocks cover the result array, so after the run the array IS that function.
-/
import proofs.«414804_j38860864094557_1_alg».proof.Proof.KernelPieces
import proofs.«414804_j38860864094557_1_alg».proof.Proof.BlockResult
import proofs.«414804_j38860864094557_1_alg».proof.Proof.TableWordsIdeal

set_option maxRecDepth 16384

noncomputable section

namespace Cert.KernelIdeal.Final

open Cert.KernelIdeal Cert.KernelIdeal.Gen Cert.KernelIdeal.Block Cert.KernelIdeal.TableWords
open Idealize.ShloMosaic Idealize.ShloMosaic.TcCoe Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- The result function of the argument arrays as the region finds them, as contents of the result array. -/
abbrev Res (c : Dev nD) : Buf (Elt F) ((c : Thread nD τ).loc main_v0) :=
  Cert.PatchSpec.result (V m c main_arg0) (V m c main_arg1) (V m c main_arg2) (V m c main_arg3)

/-- The printed index maps, decided over the grid: every window's block index is `(t, 0, …, 0)` at point `t`. -/
theorem idx_facts (hO : Ok m) : ∀ t : Fin (cfgM m hO).N,
    ((cfgM m hO).win 0).index t (0 : Fin 3) = t.val ∧ ((cfgM m hO).win 0).index t (1 : Fin 3) = 0 ∧ ((cfgM m hO).win 0).index t (2 : Fin 3) = 0
    ∧ ((cfgM m hO).win 1).index t (0 : Fin 3) = t.val ∧ ((cfgM m hO).win 1).index t (1 : Fin 3) = 0 ∧ ((cfgM m hO).win 1).index t (2 : Fin 3) = 0
    ∧ ((cfgM m hO).win 2).index t (0 : Fin 4) = t.val ∧ ((cfgM m hO).win 2).index t (1 : Fin 4) = 0 ∧ ((cfgM m hO).win 2).index t (2 : Fin 4) = 0
      ∧ ((cfgM m hO).win 2).index t (3 : Fin 4) = 0
    ∧ ((cfgM m hO).win 3).index t (0 : Fin 5) = t.val ∧ ((cfgM m hO).win 3).index t (1 : Fin 5) = 0 ∧ ((cfgM m hO).win 3).index t (2 : Fin 5) = 0
      ∧ ((cfgM m hO).win 3).index t (3 : Fin 5) = 0 ∧ ((cfgM m hO).win 3).index t (4 : Fin 5) = 0 :=
  (by decide +kernel : ∀ t : Fin grid0.N,
    cc0_transform_0 (grid0.coords t) (0 : Fin 3) = t.val ∧ cc0_transform_0 (grid0.coords t) (1 : Fin 3) = 0 ∧ cc0_transform_0 (grid0.coords t) (2 : Fin 3) = 0
    ∧ cc0_transform_1 (grid0.coords t) (0 : Fin 3) = t.val ∧ cc0_transform_1 (grid0.coords t) (1 : Fin 3) = 0 ∧ cc0_transform_1 (grid0.coords t) (2 : Fin 3) = 0
    ∧ cc0_transform_2 (grid0.coords t) (0 : Fin 4) = t.val ∧ cc0_transform_2 (grid0.coords t) (1 : Fin 4) = 0 ∧ cc0_transform_2 (grid0.coords t) (2 : Fin 4) = 0
      ∧ cc0_transform_2 (grid0.coords t) (3 : Fin 4) = 0
    ∧ cc0_transform_3 (grid0.coords t) (0 : Fin 5) = t.val ∧ cc0_transform_3 (grid0.coords t) (1 : Fin 5) = 0 ∧ cc0_transform_3 (grid0.coords t) (2 : Fin 5) = 0
      ∧ cc0_transform_3 (grid0.coords t) (3 : Fin 5) = 0 ∧ cc0_transform_3 (grid0.coords t) (4 : Fin 5) = 0)

/-- The grid point as a row number of the arrays. -/
abbrev rowOf (hO : Ok m) (t : Fin (cfgM m hO).N) : Fin 64 := ⟨t.val, t.isLt⟩

/-- The grid coordinate of point `t` is `t`. -/
theorem coords_val (hO : Ok m) : ∀ t : Fin (cfgM m hO).N, ((grid0.coords t) 0).val = t.val :=
  (by decide +kernel : ∀ t : Fin grid0.N, ((grid0.coords t) 0).val = t.val)

/-- The first sequence's block at point `t` is row `t` of the array. -/
theorem iblk0_apply (hO : Ok m) (c : Dev nD) (t : Fin (cfgM m hO).N) (r : Fin 2048) (k : Fin 60) :
    (iblk m hO c 0 t : Vec F S1x2048x60 .f32) (ix3 (0 : Fin 1) r k) = V m c main_arg0 (ix3 (rowOf m hO t) r k) := by
  obtain ⟨e0, e1, e2, -⟩ := idx_facts m hO t
  unfold iblk
  show V m c main_arg0 _ = V m c main_arg0 _
  congr 1
  funext a
  apply Fin.ext
  match a with
  | ⟨0, _⟩ => show ((cfgM m hO).win 0).index t (0 : Fin 3) * 1 + 1 * 0 = t.val; rw [e0]; omega
  | ⟨1, _⟩ => show ((cfgM m hO).win 0).index t (1 : Fin 3) * 2048 + 1 * r.val = r.val; rw [e1]; omega
  | ⟨2, _⟩ => show ((cfgM m hO).win 0).index t (2 : Fin 3) * 60 + 1 * k.val = k.val; rw [e2]; omega

/-- The second sequence's block at point `t` is row `t` of the array. -/
theorem iblk1_apply (hO : Ok m) (c : Dev nD) (t : Fin (cfgM m hO).N) (r : Fin 2048) (k : Fin 60) :
    (iblk m hO c 1 t : Vec F S1x2048x60 .f32) (ix3 (0 : Fin 1) r k) = V m c main_arg1 (ix3 (rowOf m hO t) r k) := by
  obtain ⟨-, -, -, e0, e1, e2, -⟩ := idx_facts m hO t
  unfold iblk
  show V m c main_arg1 _ = V m c main_arg1 _
  congr 1
  funext a
  apply Fin.ext
  match a with
  | ⟨0, _⟩ => show ((cfgM m hO).win 1).index t (0 : Fin 3) * 1 + 1 * 0 = t.val; rw [e0]; omega
  | ⟨1, _⟩ => show ((cfgM m hO).win 1).index t (1 : Fin 3) * 2048 + 1 * r.val = r.val; rw [e1]; omega
  | ⟨2, _⟩ => show ((cfgM m hO).win 1).index t (2 : Fin 3) * 60 + 1 * k.val = k.val; rw [e2]; omega

/-- The `geo` block at point `t` is row `t` of the array. -/
theorem iblk2_apply (hO : Ok m) (c : Dev nD) (t : Fin (cfgM m hO).N) (p : Fin 16) (a b : Fin 30) :
    (iblk m hO c 2 t : Vec F S1x16x30x30 .f32) (ix4 (0 : Fin 1) p a b) = V m c main_arg2 (ix4 (rowOf m hO t) p a b) := by
  obtain ⟨-, -, -, -, -, -, e0, e1, e2, e3, -⟩ := idx_facts m hO t
  unfold iblk
  show V m c main_arg2 _ = V m c main_arg2 _
  congr 1
  funext ax
  apply Fin.ext
  match ax with
  | ⟨0, _⟩ => show ((cfgM m hO).win 2).index t (0 : Fin 4) * 1 + 1 * 0 = t.val; rw [e0]; omega
  | ⟨1, _⟩ => show ((cfgM m hO).win 2).index t (1 : Fin 4) * 16 + 1 * p.val = p.val; rw [e1]; omega
  | ⟨2, _⟩ => show ((cfgM m hO).win 2).index t (2 : Fin 4) * 30 + 1 * a.val = a.val; rw [e2]; omega
  | ⟨3, _⟩ => show ((cfgM m hO).win 2).index t (3 : Fin 4) * 30 + 1 * b.val = b.val; rw [e3]; omega

/-- The start rows point `t` uses are the words of row `t` of the table. -/
theorem startRow_eq (hO : Ok m) (c : Dev nD) (t : Fin (cfgM m hO).N) (k : Fin 2) (p : Fin 16) :
    startRow c (tbl m 0) (grid0.coords t) k p = (V m c main_arg3 (ix3 (rowOf m hO t) p k)).toNat := by
  obtain rfl : c = 0 := Subsingleton.elim _ _
  have e := coords_val m hO t
  unfold startRow
  show (tbl m 0 _).toNat = (V m 0 main_arg3 _).toNat
  congr 2
  funext ax
  apply Fin.ext
  match ax with
  | ⟨0, _⟩ => exact e
  | ⟨1, _⟩ => rfl
  | ⟨2, _⟩ => rfl

/-- WHAT POINT `t` WRITES BACK is block `t` of the result function. -/
theorem flushed_eq (hO : Ok m) (hH : Hyps m hO) (hr : ∀ (c : Dev nD) i, (V m c main_arg3 i).toNat ≤ 2018)
    (c : Dev nD) (t : Fin (cfgM m hO).N) :
    (dats m hO hH 0 c).flushed 3 t = (((cfgM m hO).win 3).blk t).view.read (Elt F) (Res m c) := by
  show ((cfgM m hO).win 3).cut (grid0.coords t) ((dats m hO hH 0 c).after 3 t) = _
  rw [after0_3]
  unfold outsAt0
  have hb := out_block c (grid0.coords t) (ms0_0 m hO t) (hs0_0 m hO t) (ms0_1 m hO t) (hs0_1 m hO t) (ms0_2 m hO t) (hs0_2 m hO t) (ms0_3 m hO t) (hs0_3 m hO t)
    (iblk m hO c 0 t) (iblk m hO c 1 t) (iblk m hO c 2 t) (tbl m 0) (Hyps.c0 hH c t) (Hyps.c1 hH c t) (Hyps.c2 hH c t) (Hyps.c3 hH c t) (Hyps.c4 hH c t) (Hyps.c5 hH c t) (Hyps.c6 hH c t) (Hyps.c7 hH c t) (Hyps.c8 hH c t) (Hyps.c9 hH c t) (Hyps.c10 hH c t) (Hyps.c11 hH c t) (Hyps.c12 hH c t) (Hyps.c13 hH c t) (Hyps.c14 hH c t) (Hyps.c15 hH c t) (Hyps.c16 hH c t) (Hyps.c17 hH c t) (Hyps.c18 hH c t) (Hyps.c19 hH c t) (Hyps.c20 hH c t) (Hyps.c21 hH c t) (Hyps.c22 hH c t) (Hyps.c23 hH c t) (Hyps.c24 hH c t) (Hyps.c25 hH c t) (Hyps.c26 hH c t) (Hyps.c27 hH c t) (Hyps.c28 hH c t) (Hyps.c29 hH c t) (Hyps.c30 hH c t) (Hyps.c31 hH c t)
  rw [hb]
  obtain ⟨-, -, -, -, -, -, -, -, -, -, e0, e1, e2, e3, e4⟩ := idx_facts m hO t
  refine funext fun (j : S1x16x30x30x121.Idx) => ?_
  have h1 : (j 1).val < 16 := (j 1).isLt
  have h2 : (j 2).val < 30 := (j 2).isLt
  have h3 : (j 3).val < 30 := (j 3).isLt
  have h4 : (j 4).val < 121 := (j 4).isLt
  have hj0 : (j 0).val < 1 := (j 0).isLt
  show blockOf (iblk m hO c 0 t) (iblk m hO c 1 t) (iblk m hO c 2 t) (startRow c (tbl m 0) (grid0.coords t) 0) (startRow c (tbl m 0) (grid0.coords t) 1)
      (((cfgM m hO).win 3).xinj (grid0.coords t) j)
    = Res m c ((((cfgM m hO).win 3).blk t).view.emb j)
  have eL : ((cfgM m hO).win 3).xinj (grid0.coords t) j
      = ix5 (0 : Fin 1) (⟨(j 1).val, h1⟩ : Fin 16) (⟨(j 2).val, h2⟩ : Fin 30) (⟨(j 3).val, h3⟩ : Fin 30) (⟨(j 4).val, h4⟩ : Fin 121) := by
    funext ax
    apply Fin.ext
    match ax with
    | ⟨0, _⟩ => show (j 0).val = 0; omega
    | ⟨1, _⟩ => rfl
    | ⟨2, _⟩ => rfl
    | ⟨3, _⟩ => rfl
    | ⟨4, _⟩ => rfl
  have eR : (((cfgM m hO).win 3).blk t).view.emb j
      = ix5 (rowOf m hO t) (⟨(j 1).val, h1⟩ : Fin 16) (⟨(j 2).val, h2⟩ : Fin 30) (⟨(j 3).val, h3⟩ : Fin 30) (⟨(j 4).val, h4⟩ : Fin 121) := by
    funext ax
    apply Fin.ext
    match ax with
    | ⟨0, _⟩ => show ((cfgM m hO).win 3).index t (0 : Fin 5) * 1 + 1 * (j 0).val = t.val; rw [e0]; omega
    | ⟨1, _⟩ => show ((cfgM m hO).win 3).index t (1 : Fin 5) * 16 + 1 * (j 1).val = (j 1).val; rw [e1]; omega
    | ⟨2, _⟩ => show ((cfgM m hO).win 3).index t (2 : Fin 5) * 30 + 1 * (j 2).val = (j 2).val; rw [e2]; omega
    | ⟨3, _⟩ => show ((cfgM m hO).win 3).index t (3 : Fin 5) * 30 + 1 * (j 3).val = (j 3).val; rw [e3]; omega
    | ⟨4, _⟩ => show ((cfgM m hO).win 3).index t (4 : Fin 5) * 121 + 1 * (j 4).val = (j 4).val; rw [e4]; omega
  rw [eL, eR]
  exact block_eq_result (iblk m hO c 0 t) (iblk m hO c 1 t) (iblk m hO c 2 t) _ _
    (V m c main_arg0) (V m c main_arg1) (V m c main_arg2) (V m c main_arg3) (rowOf m hO t)
    (iblk0_apply m hO c t) (iblk1_apply m hO c t) (iblk2_apply m hO c t)
    (startRow_eq m hO c t 0) (startRow_eq m hO c t 1) (hr c) _ _ _ _

set_option backward.isDefEq.respectTransparency.types false in
/-- An index of the result array is in point `t`'s block iff each coordinate is in the block's range on its axis. -/
theorem mem_blk (hO : Ok m) (t : Fin (cfgM m hO).N) (i : S64x16x30x30x121.Idx) :
    i ∈ (((cfgM m hO).win 3).blk t).view.set ↔ ∀ a : Fin 5, ((cfgM m hO).win 3).index t a * S1x16x30x30x121.size a ≤ (i a).val
      ∧ (i a).val < ((cfgM m hO).win 3).index t a * S1x16x30x30x121.size a + S1x16x30x30x121.size a := by
  show i ∈ ((View.whole main_v0).slice (((cfgM m hO).win 3).rect t)).set ↔ _
  rw [View.set_slice_whole]
  exact Rect.mem_set_unit

/-- Every index of the result array is in the block of the point its leading coordinate names. -/
theorem covered (hO : Ok m) (i : S64x16x30x30x121.Idx) :
    ∃ t : Fin (cfgM m hO).N, ((cfgM m hO).win 3).flush t = true ∧ i ∈ (((cfgM m hO).win 3).blk t).view.set := by
  have hi0 : (i 0).val < 64 := (i 0).isLt
  have h1 : (i 1).val < 16 := (i 1).isLt
  have h2 : (i 2).val < 30 := (i 2).isLt
  have h3 : (i 3).val < 30 := (i 3).isLt
  have h4 : (i 4).val < 121 := (i 4).isLt
  refine ⟨(⟨(i 0).val, hi0⟩ : Fin (cfgM m hO).N), flush0_3 (adm m hO) _, ?_⟩
  obtain ⟨-, -, -, -, -, -, -, -, -, -, e0, e1, e2, e3, e4⟩ := idx_facts m hO (⟨(i 0).val, hi0⟩ : Fin (cfgM m hO).N)
  rw [mem_blk]
  intro a
  match a with
  | ⟨0, _⟩ =>
    show ((cfgM m hO).win 3).index (⟨(i 0).val, hi0⟩ : Fin (cfgM m hO).N) (0 : Fin 5) * 1 ≤ (i 0).val
      ∧ (i 0).val < ((cfgM m hO).win 3).index (⟨(i 0).val, hi0⟩ : Fin (cfgM m hO).N) (0 : Fin 5) * 1 + 1
    rw [e0]; show (i 0).val * 1 ≤ (i 0).val ∧ (i 0).val < (i 0).val * 1 + 1; omega
  | ⟨1, _⟩ =>
    show ((cfgM m hO).win 3).index (⟨(i 0).val, hi0⟩ : Fin (cfgM m hO).N) (1 : Fin 5) * 16 ≤ (i 1).val
      ∧ (i 1).val < ((cfgM m hO).win 3).index (⟨(i 0).val, hi0⟩ : Fin (cfgM m hO).N) (1 : Fin 5) * 16 + 16
    rw [e1]; omega
  | ⟨2, _⟩ =>
    show ((cfgM m hO).win 3).index (⟨(i 0).val, hi0⟩ : Fin (cfgM m hO).N) (2 : Fin 5) * 30 ≤ (i 2).val
      ∧ (i 2).val < ((cfgM m hO).win 3).index (⟨(i 0).val, hi0⟩ : Fin (cfgM m hO).N) (2 : Fin 5) * 30 + 30
    rw [e2]; omega
  | ⟨3, _⟩ =>
    show ((cfgM m hO).win 3).index (⟨(i 0).val, hi0⟩ : Fin (cfgM m hO).N) (3 : Fin 5) * 30 ≤ (i 3).val
      ∧ (i 3).val < ((cfgM m hO).win 3).index (⟨(i 0).val, hi0⟩ : Fin (cfgM m hO).N) (3 : Fin 5) * 30 + 30
    rw [e3]; omega
  | ⟨4, _⟩ =>
    show ((cfgM m hO).win 3).index (⟨(i 0).val, hi0⟩ : Fin (cfgM m hO).N) (4 : Fin 5) * 121 ≤ (i 4).val
      ∧ (i 4).val < ((cfgM m hO).win 3).index (⟨(i 0).val, hi0⟩ : Fin (cfgM m hO).N) (4 : Fin 5) * 121 + 121
    rw [e4]; omega

/-- So the result array ends holding the result function: every point writes its block, and the blocks cover the array. -/
theorem final (hO : Ok m) (hH : Hyps m hO) (hr : ∀ (c : Dev nD) i, (V m c main_arg3 i).toNat ≤ 2018) (c : Dev nD) :
    (dats m hO hH 0 c).arrAt 3 (cfgM m hO).N = Res m c :=
  (dats m hO hH 0 c).arrAt_eq_of_cover 3 (Res m c) (fun t _ => flushed_eq m hO hH hr c t) (covered m hO)

/-- THE RUN, READ: every weakly fair execution terminates with the result array at the result function of the
    argument arrays, the arguments unchanged. -/
theorem run (hr : ∀ (c : Dev nD) i, (m ((c : Thread nD τ).loc main_arg3) i).toNat ≤ 2018) :
    θ_run defs (onTc (τ := τ) (main (F := F))) ⟨m, fun _ => 0, ρ⟩ fun r => ∀ c : Dev nD,
      r.2.mem ((c : Thread nD τ).loc main_v0)
        = Cert.PatchSpec.result (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  have hO : Ok m := ok m
  have hH : Hyps m hO := hyps m (hr 0)
  (θ_run defs _ _).mono (fun _ h c => ⟨((h c).1 3).trans (final m hO hH hr c),
      ((h c).1 0).trans (((dats m hO hH 0 c).arrAt_in 0 rfl _).trans ((A_eq m hO hH c 0).trans (V_main_arg0 m c))),
      ((h c).1 1).trans (((dats m hO hH 0 c).arrAt_in 1 rfl _).trans ((A_eq m hO hH c 1).trans (V_main_arg1 m c))),
      ((h c).1 2).trans (((dats m hO hH 0 c).arrAt_in 2 rfl _).trans ((A_eq m hO hH c 2).trans (V_main_arg2 m c))),
      ((h c).2 main_arg3 (by decide : main_arg3 ∈ Pipeline.restRefs sig spec0)).trans (V_main_arg3 m c)⟩)
    (run_main m ρ hO hH)

end Cert.KernelIdeal.Final

end
-- ==== Proof.LibGatherPairRows.lean ====
/-
  A `stablehlo.gather` whose start index is a PAIR (leading coordinate, row), read at an index, for any sizes.

  Operand `[B, N, C]`; start indices `[E0, E1, E2, 2]` with the index vector on the last axis; result
  `[E0, E1, E2, C]`; offset axis `3`, collapsed operand axes `0` and `1`, start index map `[0, 1]`, slices
  `[1, 1, C]`. This is what `x[i, j]` lowers to for an array `x` of rank three indexed by two integer arrays
  of one common shape `[E0, E1, E2]`. The result at `(e0, e1, e2, k)` is the operand at
  `(clamp i, clamp j, k)`, where `i` and `j` are the two components of the start index at `(e0, e1, e2)`,
  read signed, and `clamp` brings a component into the axis (`[0, B − 1]`, `[0, N − 1]`).
-/
import Idealize.ShloMosaic.Lib.ValueIdx

noncomputable section

namespace Idealize.ShloMosaic.GatherPairRows

open Idealize.ShloMosaic Idealize.ShloMosaic.ValueIdx

variable {α : Type}

/-- The dimension numbers of the gather described above; their conditions `wf` are decided on a program's literal
    shapes. -/
abbrev pairRowsDims (B N C E0 E1 E2 : Nat)
    (wf : GatherDims.WF ⟨3, ![B, N, C]⟩ ⟨4, ![E0, E1, E2, 2]⟩ ⟨4, ![E0, E1, E2, C]⟩ [3] [0, 1] [] [0, 1] [] 3 ![1, 1, C]) :
    GatherDims ⟨3, ![B, N, C]⟩ ⟨4, ![E0, E1, E2, 2]⟩ ⟨4, ![E0, E1, E2, C]⟩ where
  offsetDims := [3]
  collapsedSliceDims := [0, 1]
  operandBatchingDims := []
  startIndicesBatchingDims := []
  startIndexMap := [0, 1]
  indexVectorDim := 3
  sliceSizes := ![1, 1, C]
  wf := wf

/-- The start-indices index `[e0, e1, e2, c]` of result index `(e0, e1, e2, _)`: component `c` of its start index. -/
abbrev pairIdx {E0 E1 E2 C : Nat} (y : (⟨4, ![E0, E1, E2, C]⟩ : Shape).Idx) (c : Fin 2) :
    (⟨4, ![E0, E1, E2, 2]⟩ : Shape).Idx :=
  fun a => match a with
    | ⟨0, _⟩ => ⟨(y 0).val, (y 0).isLt⟩
    | ⟨1, _⟩ => ⟨(y 1).val, (y 1).isLt⟩
    | ⟨2, _⟩ => ⟨(y 2).val, (y 2).isLt⟩
    | ⟨3, _⟩ => c

/-- The last coordinate of a result index, as a column of the operand. -/
abbrev colOf {E0 E1 E2 C : Nat} (y : (⟨4, ![E0, E1, E2, C]⟩ : Shape).Idx) : Fin C :=
  ⟨(y 3).val, show (y 3).val < C from (y 3).isLt⟩

section
variable {B N C E0 E1 E2 w : Nat}
  (wf : GatherDims.WF ⟨3, ![B, N, C]⟩ ⟨4, ![E0, E1, E2, 2]⟩ ⟨4, ![E0, E1, E2, C]⟩ [3] [0, 1] [] [0, 1] [] 3 ![1, 1, C])
  (idx : IVec ⟨4, ![E0, E1, E2, 2]⟩ w) (y : (⟨4, ![E0, E1, E2, C]⟩ : Shape).Idx)

/-- On the operand's leading axis the slice starts at the first component of the start index, clamped; nothing
    is added to it (the axis is collapsed). -/
theorem coord0 :
    (pairRowsDims B N C E0 E1 E2 wf).start y idx 0 + (pairRowsDims B N C E0 E1 E2 wf).offCoord y 0
      = min (idx (pairIdx y 0)).toInt.toNat (B - 1) := by
  rw [GatherDims.offCoord_eq_zero _ _ _ (fun h => ((GatherDims.mem_sKept _ _).mp h).1 (by decide : (0 : Fin 3) ∈ ([0, 1] : List (Fin 3)))), Nat.add_zero]
  unfold GatherDims.start
  rw [dif_pos (show (0 : Fin 3) ∈ (pairRowsDims B N C E0 E1 E2 wf).startIndexMap from (by decide : (0 : Fin 3) ∈ ([0, 1] : List (Fin 3))))]
  have hsi : (pairRowsDims B N C E0 E1 E2 wf).siIdx y ⟨List.idxOf (0 : Fin 3) (pairRowsDims B N C E0 E1 E2 wf).startIndexMap,
      List.idxOf_lt_length_iff.2 (by decide : (0 : Fin 3) ∈ ([0, 1] : List (Fin 3)))⟩ = pairIdx y 0 := by
    funext b; refine Fin.ext ?_
    match b with
    | ⟨0, _⟩ => rfl
    | ⟨1, _⟩ => rfl
    | ⟨2, _⟩ => rfl
    | ⟨3, _⟩ => rfl
  rw [hsi]
  rfl

/-- On the row axis the slice starts at the second component of the start index, clamped; nothing is added to it. -/
theorem coord1 :
    (pairRowsDims B N C E0 E1 E2 wf).start y idx 1 + (pairRowsDims B N C E0 E1 E2 wf).offCoord y 1
      = min (idx (pairIdx y 1)).toInt.toNat (N - 1) := by
  rw [GatherDims.offCoord_eq_zero _ _ _ (fun h => ((GatherDims.mem_sKept _ _).mp h).1 (by decide : (1 : Fin 3) ∈ ([0, 1] : List (Fin 3)))), Nat.add_zero]
  unfold GatherDims.start
  rw [dif_pos (show (1 : Fin 3) ∈ (pairRowsDims B N C E0 E1 E2 wf).startIndexMap from (by decide : (1 : Fin 3) ∈ ([0, 1] : List (Fin 3))))]
  have hsi : (pairRowsDims B N C E0 E1 E2 wf).siIdx y ⟨List.idxOf (1 : Fin 3) (pairRowsDims B N C E0 E1 E2 wf).startIndexMap,
      List.idxOf_lt_length_iff.2 (by decide : (1 : Fin 3) ∈ ([0, 1] : List (Fin 3)))⟩ = pairIdx y 1 := by
    funext b; refine Fin.ext ?_
    match b with
    | ⟨0, _⟩ => rfl
    | ⟨1, _⟩ => rfl
    | ⟨2, _⟩ => rfl
    | ⟨3, _⟩ => rfl
  rw [hsi]
  rfl

/-- On the column axis the slice is whole: it starts at `0` and the result's last coordinate is the offset. -/
theorem coord2 :
    (pairRowsDims B N C E0 E1 E2 wf).start y idx 2 + (pairRowsDims B N C E0 E1 E2 wf).offCoord y 2 = (y 3).val := by
  unfold GatherDims.start
  rw [dif_neg (show (2 : Fin 3) ∉ (pairRowsDims B N C E0 E1 E2 wf).startIndexMap from (by decide : (2 : Fin 3) ∉ ([0, 1] : List (Fin 3)))), Nat.zero_add]
  rfl

end

/-- THE GATHER READ AT AN INDEX: the operand at the two components of the start index, each read signed and
    clamped into its axis, and the result's last coordinate. -/
theorem gather_pairRows_apply {B N C E0 E1 E2 w : Nat} (hB : 0 < B) (hN : 0 < N)
    (wf : GatherDims.WF ⟨3, ![B, N, C]⟩ ⟨4, ![E0, E1, E2, 2]⟩ ⟨4, ![E0, E1, E2, C]⟩ [3] [0, 1] [] [0, 1] [] 3 ![1, 1, C])
    (x : (⟨3, ![B, N, C]⟩ : Shape).Idx → α) (idx : IVec ⟨4, ![E0, E1, E2, 2]⟩ w)
    (y : (⟨4, ![E0, E1, E2, C]⟩ : Shape).Idx) :
    Host.gather (pairRowsDims B N C E0 E1 E2 wf) x idx y
      = x (ix3 (⟨min (idx (pairIdx y 0)).toInt.toNat (B - 1), by omega⟩ : Fin B)
            (⟨min (idx (pairIdx y 1)).toInt.toNat (N - 1), by omega⟩ : Fin N) (colOf y)) := by
  unfold Host.gather
  congr 1
  funext a
  refine Fin.ext ?_
  show (pairRowsDims B N C E0 E1 E2 wf).start y idx a + (pairRowsDims B N C E0 E1 E2 wf).batchCoord y a
    + (pairRowsDims B N C E0 E1 E2 wf).offCoord y a = _
  rw [GatherDims.batchCoord_eq_zero _ _ _ List.not_mem_nil, Nat.add_zero]
  match a with
  | ⟨0, _⟩ => exact coord0 wf idx y
  | ⟨1, _⟩ => exact coord1 wf idx y
  | ⟨2, _⟩ => exact coord2 wf idx y

end Idealize.ShloMosaic.GatherPairRows

end
-- ==== Proof.RefValue.lean ====
/-
  The reference program's result, as a function of its four argument arrays, IS the patch function
  `Cert.PatchSpec.result`, provided every word of `patches` is at most `2018` as a natural number.

  The program builds, for each of the two sequences, an integer array of start indices `[64, 16, 30, 2]`: component `0` is
  the batch number `b`, component `1` is `patches (b, p, comp) + j` for `j < 30`; before use each component `v` is replaced
  by `v + size` where `v` is negative as a signed word. Under the hypothesis neither component is negative, the sum
  does not wrap (it is at most `2018 + 29 = 2047`), and the gather's clamps `min _ 63`, `min _ 2047` leave the
  components alone. So the first gather at `(b, p, c, k)` is `seq1 (b, patches (b, p, 0) + c, k)`, the second at
  `(b, p, a, k)` is `seq2 (b, patches (b, p, 1) + a, k)`; they are broadcast over the axes `a` and `c` and joined with
  `geo` along the last axis, at positions `0 … 59`, `60 … 119` and `120`.
-/
import proofs.«414804_j38860864094557_1_alg».proof.Proof.Gen.ReferenceIdeal.Read
import proofs.«414804_j38860864094557_1_alg».proof.Proof.LibGatherPairRows
import proofs.«414804_j38860864094557_1_alg».proof.Proof.PatchSpec
import Idealize.ShloMosaic.Lib.Pipeline.Value
import Idealize.ShloMosaic.Lib.ValueIdx
import Idealize.ShloMosaic.Lib.StableHlo.Predicate

noncomputable section

namespace Cert.RefValue

open Cert.ReferenceIdeal Cert.ReferenceIdeal.Gen Cert.ReferenceIdeal.Read Cert.PatchSpec
open Idealize.ShloMosaic Idealize.ShloMosaic.ValueIdx Idealize.ShloMosaic.GatherPairRows
open Idealize.ShloMosaic.StableHlo.Predicate

variable {F : FTy → Type} [FloatOps F]

/-! ## Words -/

/-- A word below `2 ^ 31` is not negative as a signed word. -/
theorem slt_zero_eq (v : BitVec 32) (hv : v.toNat < 2 ^ 31) : IntOp.cmpi .slt v 0#32 = 0#1 :=
  eq_zero_of_ne_one (fun h => by
    have := (slt_iff_toNat (a := v) (b := 0#32) hv (by decide)).mp h
    simp at this)

/-- The word of a window row: no wrap. -/
theorem toNat_addi_row (w : BitVec 32) (j : Nat) (hw : w.toNat ≤ 2018) (hj : j < 30) :
    (IntOp.addi w (BitVec.ofNat 32 j)).toNat = w.toNat + j := by
  unfold IntOp.addi
  rw [BitVec.toNat_add, BitVec.toNat_ofNat]
  omega

/-- A word below `2 ^ 31`, read signed, is its natural number. -/
theorem toInt_toNat_eq (v : BitVec 32) (hv : v.toNat < 2 ^ 31) : v.toInt.toNat = v.toNat := by
  rw [toInt_eq_toNat_of_lt hv]; rfl

/-- The wrap of a word that is not negative is the word (`u` stands for the word plus the axis size). -/
theorem wrap_eq (v u : BitVec 32) (hv : v.toNat < 2 ^ 31) :
    Scalar.select (IntOp.cmpi .slt v 0#32) u v = v := by
  rw [slt_zero_eq v hv, select_zero]

/-- The batch number as a word, below `64`. -/
theorem toNat_ofNat_batch (b : Nat) (hb : b < 64) : (BitVec.ofNat 32 b).toNat = b := by
  rw [BitVec.toNat_ofNat]; omega

/-! ## The gather of rows at a pair (batch, row) of start words -/

/-- The gather at `(b, p, j, k)`, when the start index at `(b, p, j)` is the pair (word of `b`, a word whose natural
    number is the row `r`): the operand at `(b, r, k)`. Neither clamp moves a component. -/
theorem gather_at {α : Type}
    (wf : GatherDims.WF ⟨3, ![64, 2048, 60]⟩ ⟨4, ![64, 16, 30, 2]⟩ ⟨4, ![64, 16, 30, 60]⟩ [3] [0, 1] [] [0, 1] [] 3 ![1, 1, 60])
    (x : (⟨3, ![64, 2048, 60]⟩ : Shape).Idx → α) (idx : IVec ⟨4, ![64, 16, 30, 2]⟩ 32)
    (b : Fin 64) (p : Fin 16) (j : Fin 30) (k : Fin 60) (r : Fin 2048)
    (h0 : idx (ix4 b p j (0 : Fin 2)) = BitVec.ofNat 32 b.val)
    (h1 : (idx (ix4 b p j (1 : Fin 2))).toNat = r.val) :
    Host.gather (pairRowsDims 64 2048 60 64 16 30 wf) x idx (ix4 b p j k) = x (ix3 b r k) := by
  refine (gather_pairRows_apply (by decide) (by decide) wf x idx (ix4 b p j k)).trans ?_
  have e0 : pairIdx (ix4 b p j k) 0 = ix4 b p j (0 : Fin 2) := by
    funext a; match a with | ⟨0, _⟩ => rfl | ⟨1, _⟩ => rfl | ⟨2, _⟩ => rfl | ⟨3, _⟩ => rfl
  have e1 : pairIdx (ix4 b p j k) 1 = ix4 b p j (1 : Fin 2) := by
    funext a; match a with | ⟨0, _⟩ => rfl | ⟨1, _⟩ => rfl | ⟨2, _⟩ => rfl | ⟨3, _⟩ => rfl
  have hb := b.isLt
  have hr := r.isLt
  congr 1
  funext a
  match a with
  | ⟨0, _⟩ =>
    refine Fin.ext ?_
    show min (idx (pairIdx (ix4 b p j k) 0)).toInt.toNat (64 - 1) = b.val
    have hbn : (BitVec.ofNat 32 b.val).toNat = b.val := toNat_ofNat_batch _ hb
    rw [e0, h0, toInt_toNat_eq _ (by rw [hbn]; omega), hbn]
    omega
  | ⟨1, _⟩ =>
    refine Fin.ext ?_
    show min (idx (pairIdx (ix4 b p j k) 1)).toInt.toNat (2048 - 1) = r.val
    rw [e1, toInt_toNat_eq _ (by rw [h1]; omega), h1]
    omega
  | ⟨2, _⟩ => rfl

/-! ## The two joins read at an index -/

/-- Joining two `[64, 16, 30, 1]` arrays along the last axis: component `0` is the first. -/
theorem join2_at0 {α : Type}
    (h : Shape.Concatenates [(⟨4, ![64, 16, 30, 1]⟩ : Shape), ⟨4, ![64, 16, 30, 1]⟩] ⟨4, ![64, 16, 30, 2]⟩ 3)
    (A B : (⟨4, ![64, 16, 30, 1]⟩ : Shape).Idx → α) (b : Fin 64) (p : Fin 16) (j : Fin 30) :
    concatenate ⟨4, ![64, 16, 30, 2]⟩ 3 [⟨⟨4, ![64, 16, 30, 1]⟩, A⟩, ⟨⟨4, ![64, 16, 30, 1]⟩, B⟩] h (ix4 b p j (0 : Fin 2))
      = A (ix4 b p j (0 : Fin 1)) :=
  concatenate_pair_apply_left 3 A B h (ix4 b p j (0 : Fin 2)) rfl (ix4 b p j (0 : Fin 1))
    (fun d => match d with | ⟨0, _⟩ => rfl | ⟨1, _⟩ => rfl | ⟨2, _⟩ => rfl | ⟨3, _⟩ => rfl)

/-- … and component `1` is the second. -/
theorem join2_at1 {α : Type}
    (h : Shape.Concatenates [(⟨4, ![64, 16, 30, 1]⟩ : Shape), ⟨4, ![64, 16, 30, 1]⟩] ⟨4, ![64, 16, 30, 2]⟩ 3)
    (A B : (⟨4, ![64, 16, 30, 1]⟩ : Shape).Idx → α) (b : Fin 64) (p : Fin 16) (j : Fin 30) :
    concatenate ⟨4, ![64, 16, 30, 2]⟩ 3 [⟨⟨4, ![64, 16, 30, 1]⟩, A⟩, ⟨⟨4, ![64, 16, 30, 1]⟩, B⟩] h (ix4 b p j (1 : Fin 2))
      = B (ix4 b p j (0 : Fin 1)) :=
  concatenate_pair_apply_right 3 A B h (ix4 b p j (1 : Fin 2)) rfl rfl (ix4 b p j (0 : Fin 1))
    (fun d => match d with
      | ⟨0, _⟩ => fun _ => rfl | ⟨1, _⟩ => fun _ => rfl | ⟨2, _⟩ => fun _ => rfl | ⟨3, _⟩ => fun hd => absurd rfl hd)
    rfl

/-- Joining `[…, 60]`, `[…, 60]`, `[…, 1]` along the last axis: positions below `60` are the first piece … -/
theorem join3_at0 {α : Type}
    (h : Shape.Concatenates [(⟨5, ![64, 16, 30, 30, 60]⟩ : Shape), ⟨5, ![64, 16, 30, 30, 60]⟩, ⟨5, ![64, 16, 30, 30, 1]⟩]
      ⟨5, ![64, 16, 30, 30, 121]⟩ 4)
    (A B : (⟨5, ![64, 16, 30, 30, 60]⟩ : Shape).Idx → α) (C : (⟨5, ![64, 16, 30, 30, 1]⟩ : Shape).Idx → α)
    (b : Fin 64) (p : Fin 16) (a c : Fin 30) (k : Fin 121) (hk : k.val < 60) :
    concatenate ⟨5, ![64, 16, 30, 30, 121]⟩ 4
        [⟨⟨5, ![64, 16, 30, 30, 60]⟩, A⟩, ⟨⟨5, ![64, 16, 30, 30, 60]⟩, B⟩, ⟨⟨5, ![64, 16, 30, 30, 1]⟩, C⟩] h (ix5 b p a c k)
      = A (ix5 b p a c (⟨k.val, hk⟩ : Fin 60)) :=
  concatenate_apply_piece 4 [⟨⟨5, ![64, 16, 30, 30, 60]⟩, A⟩, ⟨⟨5, ![64, 16, 30, 30, 60]⟩, B⟩, ⟨⟨5, ![64, 16, 30, 30, 1]⟩, C⟩] h
    (ix5 b p a c k) 0 (show 0 < 3 by decide) _ A rfl rfl 0 rfl (ix5 b p a c (⟨k.val, hk⟩ : Fin 60))
    (fun d => match d with
      | ⟨0, _⟩ => fun _ => rfl | ⟨1, _⟩ => fun _ => rfl | ⟨2, _⟩ => fun _ => rfl | ⟨3, _⟩ => fun _ => rfl
      | ⟨4, _⟩ => fun hd => absurd rfl hd)
    (Nat.zero_add _)

/-- … positions `60 … 119` the second, `60` less … -/
theorem join3_at1 {α : Type}
    (h : Shape.Concatenates [(⟨5, ![64, 16, 30, 30, 60]⟩ : Shape), ⟨5, ![64, 16, 30, 30, 60]⟩, ⟨5, ![64, 16, 30, 30, 1]⟩]
      ⟨5, ![64, 16, 30, 30, 121]⟩ 4)
    (A B : (⟨5, ![64, 16, 30, 30, 60]⟩ : Shape).Idx → α) (C : (⟨5, ![64, 16, 30, 30, 1]⟩ : Shape).Idx → α)
    (b : Fin 64) (p : Fin 16) (a c : Fin 30) (k : Fin 121) (hk : 60 ≤ k.val) (hk2 : k.val < 120) :
    concatenate ⟨5, ![64, 16, 30, 30, 121]⟩ 4
        [⟨⟨5, ![64, 16, 30, 30, 60]⟩, A⟩, ⟨⟨5, ![64, 16, 30, 30, 60]⟩, B⟩, ⟨⟨5, ![64, 16, 30, 30, 1]⟩, C⟩] h (ix5 b p a c k)
      = B (ix5 b p a c (⟨k.val - 60, by omega⟩ : Fin 60)) :=
  concatenate_apply_piece 4 [⟨⟨5, ![64, 16, 30, 30, 60]⟩, A⟩, ⟨⟨5, ![64, 16, 30, 30, 60]⟩, B⟩, ⟨⟨5, ![64, 16, 30, 30, 1]⟩, C⟩] h
    (ix5 b p a c k) 1 (show 1 < 3 by decide) _ B rfl rfl 60 rfl
    (ix5 b p a c (⟨k.val - 60, by omega⟩ : Fin 60))
    (fun d => match d with
      | ⟨0, _⟩ => fun _ => rfl | ⟨1, _⟩ => fun _ => rfl | ⟨2, _⟩ => fun _ => rfl | ⟨3, _⟩ => fun _ => rfl
      | ⟨4, _⟩ => fun hd => absurd rfl hd)
    (by show 60 + (k.val - 60) = k.val; omega)

/-- … and position `120` the third. -/
theorem join3_at2 {α : Type}
    (h : Shape.Concatenates [(⟨5, ![64, 16, 30, 30, 60]⟩ : Shape), ⟨5, ![64, 16, 30, 30, 60]⟩, ⟨5, ![64, 16, 30, 30, 1]⟩]
      ⟨5, ![64, 16, 30, 30, 121]⟩ 4)
    (A B : (⟨5, ![64, 16, 30, 30, 60]⟩ : Shape).Idx → α) (C : (⟨5, ![64, 16, 30, 30, 1]⟩ : Shape).Idx → α)
    (b : Fin 64) (p : Fin 16) (a c : Fin 30) (k : Fin 121) (hk : 120 ≤ k.val) :
    concatenate ⟨5, ![64, 16, 30, 30, 121]⟩ 4
        [⟨⟨5, ![64, 16, 30, 30, 60]⟩, A⟩, ⟨⟨5, ![64, 16, 30, 30, 60]⟩, B⟩, ⟨⟨5, ![64, 16, 30, 30, 1]⟩, C⟩] h (ix5 b p a c k)
      = C (ix5 b p a c (0 : Fin 1)) :=
  concatenate_apply_piece 4 [⟨⟨5, ![64, 16, 30, 30, 60]⟩, A⟩, ⟨⟨5, ![64, 16, 30, 30, 60]⟩, B⟩, ⟨⟨5, ![64, 16, 30, 30, 1]⟩, C⟩] h
    (ix5 b p a c k) 2 (show 2 < 3 by decide) _ C rfl rfl 120 rfl (ix5 b p a c (0 : Fin 1))
    (fun d => match d with
      | ⟨0, _⟩ => fun _ => rfl | ⟨1, _⟩ => fun _ => rfl | ⟨2, _⟩ => fun _ => rfl | ⟨3, _⟩ => fun _ => rfl
      | ⟨4, _⟩ => fun hd => absurd rfl hd)
    (by have := k.isLt; show 120 + 0 = k.val; omega)

/-! ## The start indices of the two gathers

Component `0` (the batch number) is the same array in both; component `1` is the window row, from `patches`' component
`0` for the first gather and component `1` for the second. -/

/-- The batch number after its wrap, first copy. -/
theorem v21_at (i : S64x1x1.Idx) : val_main_v21 (F := F) i = BitVec.ofNat 32 (i 0).val := by
  have hi : (i 0).val < 64 := (i 0).isLt
  rw [val_main_v21_apply, val_main_v18_apply, val_main_v17_apply, val_main_c_apply, val_main_v2_apply, val_main_v1_apply]
  show Scalar.select (IntOp.cmpi .slt (BitVec.ofNat 32 (i 0).val) 0#32) _ (BitVec.ofNat 32 (i 0).val) = _
  exact wrap_eq _ _ (by rw [toNat_ofNat_batch _ hi]; omega)

/-- The batch number after its wrap, second copy. -/
theorem v36_at (i : S64x1x1.Idx) : val_main_v36 (F := F) i = BitVec.ofNat 32 (i 0).val := by
  have hi : (i 0).val < 64 := (i 0).isLt
  rw [val_main_v36_apply, val_main_v33_apply, val_main_v32_apply, val_main_c_3_apply, val_main_v2_apply, val_main_v1_apply]
  show Scalar.select (IntOp.cmpi .slt (BitVec.ofNat 32 (i 0).val) 0#32) _ (BitVec.ofNat 32 (i 0).val) = _
  exact wrap_eq _ _ (by rw [toNat_ofNat_batch _ hi]; omega)

/-- Component `0` of the first start-index array, before the join. -/
theorem v28_at (i : S64x16x30x1.Idx) : val_main_v28 (F := F) i = BitVec.ofNat 32 (i 0).val :=
  (val_main_v28_apply i).trans ((val_main_v27_apply _).trans (v21_at _))

/-- Component `0` of the second start-index array, before the join. -/
theorem v43_at (i : S64x16x30x1.Idx) : val_main_v43 (F := F) i = BitVec.ofNat 32 (i 0).val :=
  (val_main_v43_apply i).trans ((val_main_v42_apply _).trans (v36_at _))

/-- The row word `patches (b, p, 0) + j`, before its wrap. -/
theorem v9_at (x3 : (⟨S64x16x2, .i32⟩ : BufTy).Contents (Elt F)) (b : Fin 64) (p : Fin 16) (j : Fin 30) :
    val_main_v9 (F := F) x3 (ix3 b p j) = IntOp.addi (x3 (ix3 b p (0 : Fin 2))) (BitVec.ofNat 32 j.val) := by
  rw [val_main_v9_apply, val_main_v7_apply, val_main_v5_apply, val_main_v4_apply, val_main_v3_apply,
    val_main_v8_apply, val_main_v6_apply, val_main_v0_apply]
  have e : idx_main_v3 (idx_main_v4 (idx_main_v5 (idx_main_v7 (ix3 b p j)))) = ix3 b p (0 : Fin 2) := by
    have hb := b.isLt
    have hp := p.isLt
    funext d
    match d with
    | ⟨0, _⟩ => exact Fin.ext (by show (b.val * 16 + p.val) / 16 = b.val; omega)
    | ⟨1, _⟩ => exact Fin.ext (by show (b.val * 16 + p.val) / 1 % 16 = p.val; omega)
    | ⟨2, _⟩ => rfl
  rw [e]

/-- The row word `patches (b, p, 1) + j`, before its wrap. -/
theorem v16_at (x3 : (⟨S64x16x2, .i32⟩ : BufTy).Contents (Elt F)) (b : Fin 64) (p : Fin 16) (j : Fin 30) :
    val_main_v16 (F := F) x3 (ix3 b p j) = IntOp.addi (x3 (ix3 b p (1 : Fin 2))) (BitVec.ofNat 32 j.val) := by
  rw [val_main_v16_apply, val_main_v14_apply, val_main_v12_apply, val_main_v11_apply, val_main_v10_apply,
    val_main_v15_apply, val_main_v13_apply, val_main_v0_apply]
  have e : idx_main_v10 (idx_main_v11 (idx_main_v12 (idx_main_v14 (ix3 b p j)))) = ix3 b p (1 : Fin 2) := by
    have hb := b.isLt
    have hp := p.isLt
    funext d
    match d with
    | ⟨0, _⟩ => exact Fin.ext (by show (b.val * 16 + p.val) / 16 = b.val; omega)
    | ⟨1, _⟩ => exact Fin.ext (by show (b.val * 16 + p.val) / 1 % 16 = p.val; omega)
    | ⟨2, _⟩ => rfl
  rw [e]

section
variable (x3 : (⟨S64x16x2, .i32⟩ : BufTy).Contents (Elt F)) (hr : ∀ i : S64x16x2.Idx, (x3 i).toNat ≤ 2018)
include hr

/-- The first row word is not negative, so its wrap leaves it. -/
theorem v26_at (b : Fin 64) (p : Fin 16) (j : Fin 30) :
    val_main_v26 (F := F) x3 (ix3 b p j) = IntOp.addi (x3 (ix3 b p (0 : Fin 2))) (BitVec.ofNat 32 j.val) := by
  have hw := hr (ix3 b p (0 : Fin 2))
  have hj := j.isLt
  rw [val_main_v26_apply, val_main_v23_apply, val_main_v22_apply, val_main_c_1_apply, v9_at]
  exact wrap_eq _ _ (by rw [toNat_addi_row _ _ hw hj]; omega)

/-- The second row word is not negative, so its wrap leaves it. -/
theorem v41_at (b : Fin 64) (p : Fin 16) (j : Fin 30) :
    val_main_v41 (F := F) x3 (ix3 b p j) = IntOp.addi (x3 (ix3 b p (1 : Fin 2))) (BitVec.ofNat 32 j.val) := by
  have hw := hr (ix3 b p (1 : Fin 2))
  have hj := j.isLt
  rw [val_main_v41_apply, val_main_v38_apply, val_main_v37_apply, val_main_c_5_apply, v16_at]
  exact wrap_eq _ _ (by rw [toNat_addi_row _ _ hw hj]; omega)

omit hr in
/-- The first start index at `(b, p, j)`, component `0`: the word of `b`. -/
theorem v30_at0 (b : Fin 64) (p : Fin 16) (j : Fin 30) :
    val_main_v30 (F := F) x3 (ix4 b p j (0 : Fin 2)) = BitVec.ofNat 32 b.val := by
  unfold val_main_v30
  exact (join2_at0 _ _ _ b p j).trans (v28_at _)

/-- The first start index at `(b, p, j)`, component `1`: the row word. -/
theorem v30_at1 (b : Fin 64) (p : Fin 16) (j : Fin 30) :
    val_main_v30 (F := F) x3 (ix4 b p j (1 : Fin 2)) = IntOp.addi (x3 (ix3 b p (0 : Fin 2))) (BitVec.ofNat 32 j.val) := by
  unfold val_main_v30
  refine (join2_at1 _ _ _ b p j).trans ((val_main_v29_apply x3 _).trans ?_)
  have e : idx_main_v29 (ix4 b p j (0 : Fin 1)) = ix3 b p j := by
    funext d; match d with | ⟨0, _⟩ => rfl | ⟨1, _⟩ => rfl | ⟨2, _⟩ => rfl
  rw [e]
  exact v26_at x3 hr b p j

omit hr in
/-- The second start index at `(b, p, j)`, component `0`: the word of `b`. -/
theorem v45_at0 (b : Fin 64) (p : Fin 16) (j : Fin 30) :
    val_main_v45 (F := F) x3 (ix4 b p j (0 : Fin 2)) = BitVec.ofNat 32 b.val := by
  unfold val_main_v45
  exact (join2_at0 _ _ _ b p j).trans (v43_at _)

/-- The second start index at `(b, p, j)`, component `1`: the row word. -/
theorem v45_at1 (b : Fin 64) (p : Fin 16) (j : Fin 30) :
    val_main_v45 (F := F) x3 (ix4 b p j (1 : Fin 2)) = IntOp.addi (x3 (ix3 b p (1 : Fin 2))) (BitVec.ofNat 32 j.val) := by
  unfold val_main_v45
  refine (join2_at1 _ _ _ b p j).trans ((val_main_v44_apply x3 _).trans ?_)
  have e : idx_main_v44 (ix4 b p j (0 : Fin 1)) = ix3 b p j := by
    funext d; match d with | ⟨0, _⟩ => rfl | ⟨1, _⟩ => rfl | ⟨2, _⟩ => rfl
  rw [e]
  exact v41_at x3 hr b p j

/-! ## The two gathers -/

omit hr in
/-- The program's gather record is the pair-of-rows gather at its literal sizes. -/
theorem gather_rec_eq :
    gather_S64x2048x60_S64x16x30x2_S64x16x30x60_3_01_n_n_01_3_1160
      = pairRowsDims 64 2048 60 64 16 30 gather_S64x2048x60_S64x16x30x2_S64x16x30x60_3_01_n_n_01_3_1160_wf := rfl

/-- The rows gathered from the first sequence: at `(b, p, c, k)`, row `patches (b, p, 0) + c`. -/
theorem v31_at (x0 : (⟨S64x2048x60, .f32⟩ : BufTy).Contents (Elt F)) (b : Fin 64) (p : Fin 16) (c : Fin 30) (k : Fin 60) :
    val_main_v31 (F := F) x0 x3 (ix4 b p c k) = x0 (ix3 b (rowAt (x3 (ix3 b p (0 : Fin 2))) c) k) := by
  have hw := hr (ix3 b p (0 : Fin 2))
  unfold val_main_v31
  rw [gather_rec_eq]
  exact gather_at _ x0 _ b p c k _ (v30_at0 x3 b p c)
    (by rw [v30_at1 x3 hr b p c, toNat_addi_row _ _ hw c.isLt, rowAt_val hw c])

/-- The rows gathered from the second sequence: at `(b, p, a, k)`, row `patches (b, p, 1) + a`. -/
theorem v46_at (x1 : (⟨S64x2048x60, .f32⟩ : BufTy).Contents (Elt F)) (b : Fin 64) (p : Fin 16) (a : Fin 30) (k : Fin 60) :
    val_main_v46 (F := F) x1 x3 (ix4 b p a k) = x1 (ix3 b (rowAt (x3 (ix3 b p (1 : Fin 2))) a) k) := by
  have hw := hr (ix3 b p (1 : Fin 2))
  unfold val_main_v46
  rw [gather_rec_eq]
  exact gather_at _ x1 _ b p a k _ (v45_at0 x3 b p a)
    (by rw [v45_at1 x3 hr b p a, toNat_addi_row _ _ hw a.isLt, rowAt_val hw a])

end

/-! ## The three pieces of the result -/

/-- The first piece does not depend on `a`. -/
theorem v48_at (x0 : (⟨S64x2048x60, .f32⟩ : BufTy).Contents (Elt F)) (x3 : (⟨S64x16x2, .i32⟩ : BufTy).Contents (Elt F))
    (b : Fin 64) (p : Fin 16) (a c : Fin 30) (k : Fin 60) :
    val_main_v48 (F := F) x0 x3 (ix5 b p a c k) = val_main_v31 (F := F) x0 x3 (ix4 b p c k) := by
  refine (val_main_v48_apply x0 x3 _).trans ((val_main_v47_apply x0 x3 _).trans ?_)
  have e : idx_main_v47 (idx_main_v48 (ix5 b p a c k)) = ix4 b p c k := by
    funext d; match d with | ⟨0, _⟩ => rfl | ⟨1, _⟩ => rfl | ⟨2, _⟩ => rfl | ⟨3, _⟩ => rfl
  rw [e]

/-- The second piece does not depend on `c`. -/
theorem v50_at (x1 : (⟨S64x2048x60, .f32⟩ : BufTy).Contents (Elt F)) (x3 : (⟨S64x16x2, .i32⟩ : BufTy).Contents (Elt F))
    (b : Fin 64) (p : Fin 16) (a c : Fin 30) (k : Fin 60) :
    val_main_v50 (F := F) x1 x3 (ix5 b p a c k) = val_main_v46 (F := F) x1 x3 (ix4 b p a k) := by
  refine (val_main_v50_apply x1 x3 _).trans ((val_main_v49_apply x1 x3 _).trans ?_)
  have e : idx_main_v49 (idx_main_v50 (ix5 b p a c k)) = ix4 b p a k := by
    funext d; match d with | ⟨0, _⟩ => rfl | ⟨1, _⟩ => rfl | ⟨2, _⟩ => rfl | ⟨3, _⟩ => rfl
  rw [e]

/-- The third piece is `geo` with a last axis of extent one. -/
theorem v51_at (x2 : (⟨S64x16x30x30, .f32⟩ : BufTy).Contents (Elt F)) (b : Fin 64) (p : Fin 16) (a c : Fin 30) :
    val_main_v51 (F := F) x2 (ix5 b p a c (0 : Fin 1)) = x2 (ix4 b p a c) := by
  refine (val_main_v51_apply x2 _).trans ?_
  have e : idx_main_v51 (ix5 b p a c (0 : Fin 1)) = ix4 b p a c := by
    funext d; match d with | ⟨0, _⟩ => rfl | ⟨1, _⟩ => rfl | ⟨2, _⟩ => rfl | ⟨3, _⟩ => rfl
  rw [e]

/-! ## The result -/

/-- THE REFERENCE'S RESULT IS THE PATCH FUNCTION of its four arguments, when every word of `patches` is at most `2018`. -/
theorem ref_result
    (x0 x1 : (⟨S64x2048x60, .f32⟩ : BufTy).Contents (Elt F)) (x2 : (⟨S64x16x30x30, .f32⟩ : BufTy).Contents (Elt F))
    (x3 : (⟨S64x16x2, .i32⟩ : BufTy).Contents (Elt F))
    (hr : ∀ i : S64x16x2.Idx, (x3 i).toNat ≤ 2018) :
    Cert.ReferenceIdeal.Read.val_main_v52 (F := F) x0 x1 x2 x3 = Cert.PatchSpec.result x0 x1 x2 x3 := by
  funext y
  obtain ⟨b, p, a, c, k, rfl⟩ : ∃ (b : Fin 64) (p : Fin 16) (a c : Fin 30) (k : Fin 121), y = ix5 b p a c k :=
    ⟨y 0, y 1, y 2, y 3, y 4, eq_ix5 y⟩
  unfold val_main_v52
  by_cases hk : k.val < 60
  · rw [result_rows x0 x1 x2 x3 b p a c k hk]
    exact (join3_at0 _ _ _ _ b p a c k hk).trans ((v48_at x0 x3 b p a c _).trans (v31_at x3 hr x0 b p c _))
  · by_cases hk2 : k.val < 120
    · rw [result_cols x0 x1 x2 x3 b p a c k (Nat.le_of_not_lt hk) hk2]
      exact (join3_at1 _ _ _ _ b p a c k (Nat.le_of_not_lt hk) hk2).trans
        ((v50_at x1 x3 b p a c _).trans (v46_at x3 hr x1 b p a _))
    · rw [result_geo x0 x1 x2 x3 b p a c k (Nat.le_of_not_lt hk2)]
      exact (join3_at2 _ _ _ _ b p a c k (Nat.le_of_not_lt hk2)).trans (v51_at x2 b p a c)

end Cert.RefValue

end
-- ==== Proof.lean ====
/-
  The proof of `Cert.Claim`: the kernel gathers, for each batch row `b` and each of `16` patches `p`, a window of `30` rows
  of `seq1` starting at `patches (b, p, 0)` and a window of `30` rows of `seq2` starting at `patches (b, p, 1)`, and lays them
  out with `geo` as `out (b, p, a, c, ·) = [seq1 row c | seq2 row a | geo (b, p, a, c)]`; the reference does the same with
  integer-array indexing. The precondition adds to finiteness that every word of `patches` lies in `[0, 2018]`: the range
  in which the reference's own row indices `patches + (0 … 29)` are in range of the `2048` rows.

  * The frames of the two kernel programs: the generated frame holds under the side conditions the body assumes of the
    table's words (each window inside its block), which the range gives (`TableWords`).
  * The reference's frame: its generated run.
  * `preserves`: the ideal pass rewrote nothing.
  * `algebraic`: both programs end with the result array at ONE function of the arguments (`Cert.PatchSpec.result`):
    the kernel by its blocks (`Cert.KernelIdeal.Final.run`), the reference by its operations read at an index
    (`Cert.RefValue.ref_result`). No arithmetic on the float entries is involved: every entry of the result is an entry
    of an argument.
-/
import proofs.«414804_j38860864094557_1_alg».proof.Defs
import proofs.«414804_j38860864094557_1_alg».proof.Proof.Gen.Kernel
import proofs.«414804_j38860864094557_1_alg».proof.Proof.Gen.Kernel.Skeleton
import proofs.«414804_j38860864094557_1_alg».proof.Proof.Gen.Kernel.Launch
import proofs.«414804_j38860864094557_1_alg».proof.Proof.Gen.Kernel.Points
import proofs.«414804_j38860864094557_1_alg».proof.Proof.Gen.Kernel.Frame
import proofs.«414804_j38860864094557_1_alg».proof.Proof.Gen.KernelIdeal
import proofs.«414804_j38860864094557_1_alg».proof.Proof.Gen.KernelIdeal.Skeleton
import proofs.«414804_j38860864094557_1_alg».proof.Proof.Gen.KernelIdeal.Launch
import proofs.«414804_j38860864094557_1_alg».proof.Proof.Gen.KernelIdeal.Points
import proofs.«414804_j38860864094557_1_alg».proof.Proof.Gen.KernelIdeal.Frame
import proofs.«414804_j38860864094557_1_alg».proof.Proof.Gen.ReferenceIdeal
import proofs.«414804_j38860864094557_1_alg».proof.Proof.Gen.ReferenceIdeal.Run
import proofs.«414804_j38860864094557_1_alg».proof.Proof.Gen.ReferenceIdeal.Read
import proofs.«414804_j38860864094557_1_alg».proof.Proof.Gen.Pre_finite_inputs
import proofs.«414804_j38860864094557_1_alg».proof.Proof.PatchRange
import proofs.«414804_j38860864094557_1_alg».proof.Proof.TableWordsBits
import proofs.«414804_j38860864094557_1_alg».proof.Proof.TableWordsIdeal
import proofs.«414804_j38860864094557_1_alg».proof.Proof.KernelFinal
import proofs.«414804_j38860864094557_1_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel (hKernel := Cert.Kernel.Gen.facts) (hPre_finite_inputs := Cert.Pre_finite_inputs.Gen.facts) :=
  fun m ρ h => Cert.Kernel.Gen.frame m ρ (Cert.Kernel.TableWords.ok m)
    (Cert.Kernel.TableWords.hyps m (Cert.PatchRange.patches_le _ _ _ _ (h 0)))

/-- So does its idealization. -/
theorem frame_ki : Cert.frame_KernelIdeal (hKernelIdeal := Cert.KernelIdeal.Gen.facts) (hPre_finite_inputs := Cert.Pre_finite_inputs.Gen.facts) :=
  fun m ρ h => Cert.KernelIdeal.Gen.frame m ρ (Cert.KernelIdeal.TableWords.ok m)
    (Cert.KernelIdeal.TableWords.hyps m (Cert.PatchRange.patches_le _ _ _ _ (h 0)))

/-- The reference runs and leaves its arguments alone: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Both idealized programs end with the result array at the one result function of arguments that agree. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have hr : ∀ (c : Dev Cert.KernelIdeal.nD) i, (m ((c.tc : Thread Cert.KernelIdeal.nD Cert.KernelIdeal.τ).loc Cert.KernelIdeal.main_arg3) i).toNat ≤ 2018 :=
    fun c => Cert.PatchRange.patches_le _ _ _ _ (hpre c)
  refine ⟨_, Cert.KernelIdeal.Final.run (F := Ideal) m ρ hr, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v52_eq, (hagree c).1, (hagree c).2.1, (hagree c).2.2.1, (hagree c).2.2.2]
  exact Cert.RefValue.ref_result _ _ _ _ (hr c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
